-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S640000x1 : Shape := ⟨2, ![640000, 1]⟩
abbrev S257x128 : Shape := ⟨2, ![257, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 4294947296#32
  let main_v39 : IVec S2x640000 32 := broadcastInDim S2x640000 ![] bcast_S_S2x640000 main_c_14
  let main_v40 : IVec S2x640000 1 := cmpi .sge main_arg1 main_v39
  let main_c_15 : IVec S_ 32 := constantI S_ 32 20000#32
  let main_v41 : IVec S2x640000 32 := broadcastInDim S2x640000 ![] bcast_S_S2x640000 main_c_15
  let main_v42 : IVec S2x640000 1 := cmpi .slt main_arg1 main_v41
  let main_v43 : IVec S2x640000 1 := andi main_v40 main_v42
  let main_c_16 : IVec S_ 1 := constantI S_ 1 1#1
  let main_v44 : IVec S_ 1 := (fun x v => Host.reduce IntOp.andi x v reducesTo_S2x640000_S_d0_1 h_S_) main_v43 main_c_16
  let main_v45 : IVec S_ 1 := andi main_v38 main_v44
  main_v45

def fn_part1 {F : FTy → Type} [FloatOps F] (main_arg1 : IVec S2x640000 32) (main_arg5 : FVec F S256x128 .f32) (main_arg6 : FVec F S128 .f32) (main_arg7 : FVec F S128x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg1 main_arg8 main_v33

def fn {F : FTy → Type} [FloatOps F] (main_arg0 : FVec F S20000x128 .f32) (main_arg1 : IVec S2x640000 32) (main_arg2 : FVec F S640000x1 .f32) (main_arg3 : FVec F S257x128 .f32) (main_arg4 : FVec F S128 .f32) (main_arg5 : FVec F S256x128 .f32) (main_arg6 : FVec F S128 .f32) (main_arg7 : FVec F S128x1 .f32) (main_arg8 : FVec F S1 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x1 .f32 := Host.absf main_arg2
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_v13 main_v16
-- ==== Kernel.lean ====
abbrev S20000x128 : Shape := ⟨2, ![20000, 128]⟩
abbrev S2x640000 : Shape := ⟨2, ![2, 640000]⟩
abbrev S640000x1 : Shape := ⟨2, ![640000, 1]⟩
abbrev S257x128 : Shape := ⟨2, ![257, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S1x1 : Shape := ⟨2, ![1, 1]⟩
abbrev S640000x128 : Shape := ⟨2, ![640000, 128]⟩
abbrev S128x128 : Shape := ⟨2, ![128, 128]⟩
abbrev S1x128 : Shape := ⟨2, ![1, 128]⟩
abbrev S3200x128 : Shape := ⟨2, ![3200, 128]⟩
abbrev S3200x1 : Shape := ⟨2, ![3200, 1]⟩
abbrev S640000x129 : Shape := ⟨2, ![640000, 129]⟩
abbrev S20000x129 : Shape := ⟨2, ![20000, 129]⟩
abbrev S20000x1 : Shape := ⟨2, ![20000, 1]⟩
abbrev S4000x128 : Shape := ⟨2, ![4000, 128]⟩
abbrev S4000x1 : Shape := ⟨2, ![4000, 1]⟩

abbrev nBuf : Space → Nat
  | .hbm => 83
  | .vmem => 23
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000x1, .f32⟩
  | .hbm, ⟨3, _⟩ => ⟨S257x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S1, .i32⟩
  | .hbm, ⟨22, _⟩ => ⟨S_, .i32⟩
  | .hbm, ⟨23, _⟩ => ⟨S640000x1, .i32⟩
  | .hbm, ⟨24, _⟩ => ⟨S640000x1, .i1⟩
  | .hbm, ⟨25, _⟩ => ⟨S1x1, .i32⟩
  | .hbm, ⟨26, _⟩ => ⟨S640000x1, .i32⟩
  | .hbm, ⟨27, _⟩ => ⟨S640000x1, .i1⟩
  | .hbm, ⟨28, _⟩ => ⟨S640000x1, .i1⟩
  | .hbm, ⟨29, _⟩ => ⟨S_, .i1⟩
  | .hbm, ⟨30, _⟩ => ⟨S640000, .i1⟩
  | .hbm, ⟨31, _⟩ => ⟨S640000x128, .f32⟩
  | .hbm, ⟨32, _⟩ => ⟨S640000x128, .i1⟩
  | .hbm, ⟨33, _⟩ => ⟨S_, .f32⟩
  | .hbm, ⟨34, _⟩ => ⟨S640000x128, .f32⟩
  | .hbm, ⟨35, _⟩ => ⟨S640000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S1, .i32⟩
  | .hbm, ⟨45, _⟩ => ⟨S_, .i32⟩
  | .hbm, ⟨46, _⟩ => ⟨S640000x1, .i32⟩
  | .hbm, ⟨47, _⟩ => ⟨S640000x1, .i1⟩
  | .hbm, ⟨48, _⟩ => ⟨S1x1, .i32⟩
  | .hbm, ⟨49, _⟩ => ⟨S640000x1, .i32⟩
  | .hbm, ⟨50, _⟩ => ⟨S640000x1, .i1⟩
  | .hbm, ⟨51, _⟩ => ⟨S640000x1, .i1⟩
  | .hbm, ⟨52, _⟩ => ⟨S_, .i1⟩
  | .hbm, ⟨53, _⟩ => ⟨S640000, .i1⟩
  | .hbm, ⟨54, _⟩ => ⟨S640000x128, .f32⟩
  | .hbm, ⟨55, _⟩ => ⟨S640000x128, .i1⟩
  | .hbm, ⟨56, _⟩ => ⟨S_, .f32⟩
  | .hbm, ⟨57, _⟩ => ⟨S640000x128, .f32⟩
  | .hbm, ⟨58, _⟩ => ⟨S640000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S640000x128, .f32⟩
  | .hbm, ⟨63, _⟩ => ⟨S_, .f32⟩
  | .hbm, ⟨64, _⟩ => ⟨S640000x1, .f32⟩
  | .hbm, ⟨65, _⟩ => ⟨S640000x129, .f32⟩
  | .hbm, ⟨66, _⟩ => ⟨S_, .f32⟩
  | .hbm, ⟨67, _⟩ => ⟨S20000x129, .f32⟩
  | .hbm, ⟨68, _⟩ => ⟨S640000x1, .i32⟩
  | .hbm, ⟨69, _⟩ => ⟨S20000x129, .f32⟩
  | .hbm, ⟨70, _⟩ => ⟨S20000x128, .f32⟩
  | .hbm, ⟨71, _⟩ => ⟨S20000x1, .f32⟩
  | .hbm, ⟨72, _⟩ => ⟨S_, .f32⟩
  | .hbm, ⟨73, _⟩ => ⟨S20000x1, .f32⟩
  | .hbm, ⟨74, _⟩ => ⟨S20000x1, .f32⟩
  | .hbm, ⟨75, _⟩ => ⟨S20000x128, .f32⟩
  | .hbm, ⟨76, _⟩ => ⟨S20000x128, .f32⟩
  | .hbm, ⟨77, _⟩ => ⟨S128x128, .f32⟩
  | .hbm, ⟨78, _⟩ => ⟨S128x128, .f32⟩
  | .hbm, ⟨79, _⟩ => ⟨S20000x1, .f32⟩
  | .hbm, ⟨80, _⟩ => ⟨S_, .f32⟩
  | .hbm, ⟨81, _⟩ => ⟨S20000x1, .f32⟩
  | .hbm, ⟨82, _⟩ => ⟨S20000x1, .i1⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x1, .f32⟩
  | .local _ .vmem, ⟨5, _⟩ => ⟨S3200x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128, .f32⟩
  | .local _ .vmem, ⟨10, _⟩ => ⟨S3200x128, .f32⟩
  | .local _ .vmem, ⟨11, _⟩ => ⟨S3200x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S128x128, .f32⟩
  | .local _ .vmem, ⟨18, _⟩ => ⟨S128, .f32⟩
  | .local _ .vmem, ⟨19, _⟩ => ⟨S128x1, .f32⟩
  | .local _ .vmem, ⟨20, _⟩ => ⟨S1, .f32⟩
  | .local _ .vmem, ⟨21, _⟩ => ⟨S4000x1, .f32⟩
  | .local _ .vmem, ⟨22, _⟩ => ⟨S4000x1, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_cst : Ref sig .tc := ⟨.hbm, 63, rfl⟩
abbrev main_v10 : Ref sig .tc := ⟨.hbm, 64, rfl⟩
abbrev main_v11 : Ref sig .tc := ⟨.hbm, 65, rfl⟩
abbrev main_cst_0 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_cst_1 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_cst_2 : Ref sig .tc := ⟨.hbm, 80, rfl⟩
abbrev main_v24 : Ref sig .tc := ⟨.hbm, 81, rfl⟩
abbrev main_v25 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  slices_S257x128_S128x128_0_0 : S257x128.Slices ![0, 0] S128x128
  slices_S257x128_S128x128_128_0 : S257x128.Slices ![128, 0] S128x128
  slices_S257x128_S1x128_256_0 : S257x128.Slices ![256, 0] S1x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3200x1_S3200x1_0_0 : ∀ a, (![0, 0] : Fin 2 → Nat) a + S3200x1.size a ≤ S3200x1.size a
  h_S3200x1 : 0 < S3200x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S3200x1_S3200x128 : S3200x1.Broadcasts S3200x128
  broadcasts_S1x128_S3200x128 : S1x128.Broadcasts S3200x128
  inb_S128_S128_0 : ∀ a, (![0] : Fin 1 → Nat) a + S128.size a ≤ S128.size a
  h_S128 : 0 < S128.numel
  shapeCasts_S128_S1x128 : S128.ShapeCasts S1x128
  concatenates_S640000x128_S640000x1_S640000x129_d1 : Shape.Concatenates [S640000x128, S640000x1] S640000x129 1
  bcast_S_S20000x129 : S_.BroadcastsInDim S20000x129 (![] : Fin 0 → Fin S20000x129.rank)
  slices_S20000x129_S20000x128_0_0 : S20000x129.Slices ![0, 0] S20000x128
  slices_S20000x129_S20000x1_0_128 : S20000x129.Slices ![0, 128] S20000x1
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  gather_S20000x128_S640000x1_S640000x128_1_0_n_n_0_1_1128_wf : GatherDims.WF S20000x128 S640000x1 S640000x128 [1] [0] [] [0] [] 1 ![1, 128]
  dot_S3200x128_S128x128_S3200x128_1_0_0_1_n_n_wf : DotDims.WF S3200x128 S128x128 S3200x128 [1] [0] [0] [1] [] []
  scatter_S20000x129_S640000x1_S640000x129_1_0_0_1_wf : ScatterDims.WF S20000x129 S640000x1 S640000x129 [1] [0] [0] 1
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S640000x128.size a
  hwx0_0 : ∀ i : grid0.Coords, EltTy.bits .f32 = 32 ∨ (Rect.block (s := S640000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S640000x128.size a
  hwx0_1 : ∀ i : grid0.Coords, EltTy.bits .f32 = 32 ∨ (Rect.block (s := S640000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x1.size a ≤ S640000x1.size a
  hwx0_2 : ∀ i : grid0.Coords, EltTy.bits .f32 = 32 ∨ (Rect.block (s := S640000x1) S3200x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x128.size a ≤ S640000x128.size a
  hwx0_7 : ∀ i : grid0.Coords, EltTy.bits .f32 = 32 ∨ (Rect.block (s := S640000x128) S3200x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x1.size a ≤ S20000x1.size a
  hwx1_7 : ∀ i : grid1.Coords, EltTy.bits .f32 = 32 ∨ (Rect.block (s := S20000x1) S4000x1.size (cc1_transform_7 i) (hinb1_7 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S20000x129_S640000x1_S640000x129_1_0_0_1 : ScatterDims S20000x129 S640000x1 S640000x129 where
  updateWindowDims := [1]
  insertedWindowDims := [0]
  scatterDimsToOperandDims := [0]
  indexVectorDim := 1
  wf := scatter_S20000x129_S640000x1_S640000x129_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v4) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S3200x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S4000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S640000x1 : Shape := ⟨2, ![640000, 1]⟩
abbrev S257x128 : Shape := ⟨2, ![257, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x128 : Shape := ⟨2, ![640000, 128]⟩
abbrev S640000x257 : Shape := ⟨2, ![640000, 257]⟩
abbrev S1x128 : Shape := ⟨2, ![1, 128]⟩
abbrev S20000x1 : Shape := ⟨2, ![20000, 1]⟩
abbrev S20000x256 : Shape := ⟨2, ![20000, 256]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000x1, .f32⟩
  | .hbm, ⟨3, _⟩ => ⟨S257x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S640000x257, .f32⟩
  | .hbm, ⟨32, _⟩ => ⟨S640000x128, .f32⟩
  | .hbm, ⟨33, _⟩ => ⟨S1x128, .f32⟩
  | .hbm, ⟨34, _⟩ => ⟨S640000x128, .f32⟩
  | .hbm, ⟨35, _⟩ => ⟨S640000x128, .f32⟩
  | .hbm, ⟨36, _⟩ => ⟨S_, .f32⟩
  | .hbm, ⟨37, _⟩ => ⟨S20000x128, .f32⟩
  | .hbm, ⟨38, _⟩ => ⟨S640000x1, .i32⟩
  | .hbm, ⟨39, _⟩ => ⟨S20000x128, .f32⟩
  | .hbm, ⟨40, _⟩ => ⟨S_, .f32⟩
  | .hbm, ⟨41, _⟩ => ⟨S640000x1, .f32⟩
  | .hbm, ⟨42, _⟩ => ⟨S_, .f32⟩
  | .hbm, ⟨43, _⟩ => ⟨S20000x1, .f32⟩
  | .hbm, ⟨44, _⟩ => ⟨S640000x1, .i32⟩
  | .hbm, ⟨45, _⟩ => ⟨S20000x1, .f32⟩
  | .hbm, ⟨46, _⟩ => ⟨S_, .f32⟩
  | .hbm, ⟨47, _⟩ => ⟨S20000x1, .f32⟩
  | .hbm, ⟨48, _⟩ => ⟨S20000x1, .f32⟩
  | .hbm, ⟨49, _⟩ => ⟨S20000x128, .f32⟩
  | .hbm, ⟨50, _⟩ => ⟨S20000x128, .f32⟩
  | .hbm, ⟨51, _⟩ => ⟨S20000x256, .f32⟩
  | .hbm, ⟨52, _⟩ => ⟨S20000x128, .f32⟩
  | .hbm, ⟨53, _⟩ => ⟨S1x128, .f32⟩
  | .hbm, ⟨54, _⟩ => ⟨S20000x128, .f32⟩
  | .hbm, ⟨55, _⟩ => ⟨S20000x128, .f32⟩
  | .hbm, ⟨56, _⟩ => ⟨S20000x1, .f32⟩
  | .hbm, ⟨57, _⟩ => ⟨S1x1, .f32⟩
  | .hbm, ⟨58, _⟩ => ⟨S20000x1, .f32⟩
  | .hbm, ⟨59, _⟩ => ⟨S20000x1, .f32⟩
  | .hbm, ⟨60, _⟩ => ⟨S20000x1, .f32⟩
  | .hbm, ⟨61, _⟩ => ⟨S20000x1, .f32⟩
  | .hbm, ⟨62, _⟩ => ⟨S_, .f32⟩
  | .hbm, ⟨63, _⟩ => ⟨S20000x1, .f32⟩
  | .hbm, ⟨64, _⟩ => ⟨S20000x1, .f32⟩
  | .hbm, ⟨65, _⟩ => ⟨S_, .f32⟩
  | .hbm, ⟨66, _⟩ => ⟨S20000x1, .f32⟩
  | .hbm, ⟨67, _⟩ => ⟨S20000x1, .f32⟩
  | .hbm, ⟨68, _⟩ => ⟨S_, .f32⟩
  | .hbm, ⟨69, _⟩ => ⟨S20000x1, .f32⟩
  | .hbm, ⟨70, _⟩ => ⟨S20000x1, .i1⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x1_S640000x257_d1 : Shape.Concatenates [S640000x128, S640000x128, S640000x1] S640000x257 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S20000x128 : S_.BroadcastsInDim S20000x128 (![] : Fin 0 → Fin S20000x128.rank)
  bcast_S_S640000x1 : S_.BroadcastsInDim S640000x1 (![] : Fin 0 → Fin S640000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  concatenates_S20000x128_S20000x128_S20000x256_d1 : Shape.Concatenates [S20000x128, S20000x128] S20000x256 1
  bcast_S1x128_S20000x128_0_1 : S1x128.BroadcastsInDim S20000x128 (![0, 1] : Fin 2 → Fin S20000x128.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  gather_S20000x128_S640000x1_S640000x128_1_0_n_n_0_1_1128_wf : GatherDims.WF S20000x128 S640000x1 S640000x128 [1] [0] [] [0] [] 1 ![1, 128]
  dot_S640000x257_S257x128_S640000x128_1_0_0_1_n_n_wf : DotDims.WF S640000x257 S257x128 S640000x128 [1] [0] [0] [1] [] []
  scatter_S20000x128_S640000x1_S640000x128_1_0_0_1_wf : ScatterDims.WF S20000x128 S640000x1 S640000x128 [1] [0] [0] 1
  scatter_S20000x1_S640000x1_S640000x1_1_0_0_1_wf : ScatterDims.WF S20000x1 S640000x1 S640000x1 [1] [0] [0] 1
  dot_S20000x256_S256x128_S20000x128_1_0_0_1_n_n_wf : DotDims.WF S20000x256 S256x128 S20000x128 [1] [0] [0] [1] [] []
  dot_S20000x128_S128x1_S20000x1_1_0_0_1_n_n_wf : DotDims.WF S20000x128 S128x1 S20000x1 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x257_S257x128_S640000x128_1_0_0_1_n_n : DotDims S640000x257 S257x128 S640000x128 where
  lhsContracting := [1]
  rhsContracting := [0]
  lhsNonContracting := [0]
  rhsNonContracting := [1]
  lhsBatch := []
  rhsBatch := []
  wf := dot_S640000x257_S257x128_S640000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000x1_S640000x1_S640000x1_1_0_0_1 : ScatterDims S20000x1 S640000x1 S640000x1 where
  updateWindowDims := [1]
  insertedWindowDims := [0]
  scatterDimsToOperandDims := [0]
  indexVectorDim := 1
  wf := scatter_S20000x1_S640000x1_S640000x1_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf

class Facts : Prop extends Facts₀ where

variable [Facts]
-- ==== Proof.HostFold.lean ====
/-
  The host operations of the kernel's program between its launches, read as values: what each stretch of plain
  array operations leaves in the buffers the two pallas_calls and the results read, as a function of what the stretch
  found. A stretch writes only its own results, so every other buffer is passed through.
-/
import proofs.«430626_j16037407883356_1_alg».proof.Proof.Gen.KernelIdeal.Frame
import Idealize.ShloMosaic.Lib.StableHlo.Run

set_option maxRecDepth 16384

noncomputable section

namespace Cert.KernelIdeal.HostFold

open Cert.KernelIdeal Cert.KernelIdeal.Gen
open Idealize.ShloMosaic Idealize.ShloMosaic.TcCoe Idealize.SL.Sem Idealize.ShloMosaic.StableHlo

variable {F : FTy → Type} [FloatOps F]

/-- Row 0 of the index pair (the sources), as a vector of edge indices. -/
def row0 (x1 : IVec S2x640000 32) : IVec S640000 32 :=
  shapeCast S640000 (extractStridedSlice S1x640000 ![0, 0] x1 slices_S2x640000_S1x640000_0_0) shapeCasts_S1x640000_S640000
/-- Row 1 of the index pair (the destinations). -/
def row1 (x1 : IVec S2x640000 32) : IVec S640000 32 :=
  shapeCast S640000 (extractStridedSlice S1x640000 ![1, 0] x1 slices_S2x640000_S1x640000_1_0) shapeCasts_S1x640000_S640000

/-- An index vector with its negative entries wrapped by the table's height, as a column. -/
def wrapped (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 20000#32))) idx)

/-- The guarded row gather: the rows of `x0` at the wrapped indices, a row whose wrapped index is not a row of the
    table replaced by the fill word. -/
def take (x0 : FVec F S20000x128 .f32) (idx : IVec S640000 32) : FVec F S640000x128 .f32 :=
  select
    (broadcastInDim S640000x128 ![0] bcast_S640000_S640000x128_0
      (Host.reduce IntOp.andi
        (andi (cmpi .sge (wrapped idx) (broadcastInDim S640000x1 ![] bcast_S_S640000x1 (constantI S_ 32 0#32)))
          (cmpi .sle (wrapped idx) (broadcastInDim S640000x1 ![0, 1] bcast_S1x1_S640000x1_0_1 (broadcastInDim S1x1 ![1] bcast_S1_S1x1_1 (constantI S1 32 19999#32)))))
        (constantI S_ 1 1#1) reducesTo_S640000x1_S640000_d1 h_S_))
    (Host.gather gather_S20000x128_S640000x1_S640000x128_1_0_n_n_0_1_1128 x0 (wrapped idx))
    (broadcastInDim S640000x128 ![] bcast_S_S640000x128 (constant S_ .f32 0x7FC00000#32))

/-- The segment sums of the rows [messages | ones] by destination. -/
def segsum (dst : IVec S640000 32) (msg : FVec F S640000x128 .f32) : FVec F S20000x129 .f32 :=
  Host.scatterAdd scatter_S20000x129_S640000x1_S640000x129_1_0_0_1
    (broadcastInDim S20000x129 ![] bcast_S_S20000x129 (constant S_ .f32 0x00000000#32))
    (broadcastInDim S640000x1 ![0] bcast_S640000_S640000x1_0 dst)
    (concatenate S640000x129 1 [⟨S640000x128, msg⟩, ⟨S640000x1, broadcastInDim S640000x1 ![] bcast_S_S640000x1 (constant S_ .f32 0x3F800000#32)⟩] concatenates_S640000x128_S640000x1_S640000x129_d1)

/-- The mean message of each node: its summed messages over its count, a count below one read as one. -/
def aggr (dst : IVec S640000 32) (msg : FVec F S640000x128 .f32) : FVec F S20000x128 .f32 :=
  Host.divf (extractStridedSlice S20000x128 ![0, 0] (segsum dst msg) slices_S20000x129_S20000x128_0_0)
    (broadcastInDim S20000x128 ![0, 1] bcast_S20000x1_S20000x128_0_1
      (maximumf (extractStridedSlice S20000x1 ![0, 128] (segsum dst msg) slices_S20000x129_S20000x1_0_128)
        (broadcastInDim S20000x1 ![] bcast_S_S20000x1 (constant S_ .f32 0x3F800000#32))))

variable (W : Valuation τ sig (Elt F))

theorem ofBuf_toBuf {T : BufTy} (x : TRef sig T) (v : T.Contents (Elt F)) : x.ofBuf (x.toBuf v) = v := by
  obtain ⟨r, h, h2, h3⟩ := x; subst h; rfl

/-! The two outlined row gathers, each over what its stretch found. -/

set_option maxHeartbeats 1000000 in
attribute [local irreducible] Host.reduce Host.gather in
theorem take_dst : StableHlo.after hostOps0_1 W (Proc.devRef .tc main_v4) = take (W (Proc.devRef .tc main_arg0)) (W (Proc.devRef .tc main_v3)) := by
  after_results
  simp only [ofBuf_toBuf]
  unfold take wrapped
  rfl
set_option maxHeartbeats 1000000 in
attribute [local irreducible] Host.reduce Host.gather in
theorem take_src : StableHlo.after hostOps0_2 W (Proc.devRef .tc main_v5) = take (W (Proc.devRef .tc main_arg0)) (W (Proc.devRef .tc main_v1)) := by
  after_results
  simp only [ofBuf_toBuf]
  unfold take wrapped
  rfl

theorem ops0_v1 : StableHlo.after hostOps0 W (Proc.devRef .tc main_v1) = row0 (W (Proc.devRef .tc main_arg1)) := by after_results_simp <;> rfl
theorem ops0_v3 : StableHlo.after hostOps0 W (Proc.devRef .tc main_v3) = row1 (W (Proc.devRef .tc main_arg1)) := by after_results_simp <;> rfl
theorem ops0_arg0 : StableHlo.after hostOps0 W (Proc.devRef .tc main_arg0) = W (Proc.devRef .tc main_arg0) := by after_results_simp <;> rfl
theorem ops01_arg0 : StableHlo.after hostOps0_1 W (Proc.devRef .tc main_arg0) = W (Proc.devRef .tc main_arg0) := by after_results_simp <;> rfl
theorem ops01_v1 : StableHlo.after hostOps0_1 W (Proc.devRef .tc main_v1) = W (Proc.devRef .tc main_v1) := by after_results_simp <;> rfl
theorem ops02_v4 : StableHlo.after hostOps0_2 W (Proc.devRef .tc main_v4) = W (Proc.devRef .tc main_v4) := by after_results_simp <;> rfl
theorem ops03_v4 : StableHlo.after hostOps0_3 W (Proc.devRef .tc main_v4) = W (Proc.devRef .tc main_v4) := by after_results_simp <;> rfl
theorem ops03_v5 : StableHlo.after hostOps0_3 W (Proc.devRef .tc main_v5) = W (Proc.devRef .tc main_v5) := by after_results_simp <;> rfl

/-- The buffers' contents when the first launch is entered, over the contents `W` @main starts from. -/
abbrev pre (W : Valuation τ sig (Elt F)) : Valuation τ sig (Elt F) :=
  StableHlo.after hostOps0_3 (StableHlo.after hostOps0_2 (StableHlo.after hostOps0_1 (StableHlo.after hostOps0 W)))

theorem pre_v4 : pre W (Proc.devRef .tc main_v4) = take (W (Proc.devRef .tc main_arg0)) (row1 (W (Proc.devRef .tc main_arg1))) := by
  show StableHlo.after hostOps0_3 (StableHlo.after hostOps0_2 (StableHlo.after hostOps0_1 (StableHlo.after hostOps0 W))) (Proc.devRef .tc main_v4) = _
  rw [ops03_v4, ops02_v4, take_dst, ops0_arg0, ops0_v3]
theorem pre_v5 : pre W (Proc.devRef .tc main_v5) = take (W (Proc.devRef .tc main_arg0)) (row0 (W (Proc.devRef .tc main_arg1))) := by
  show StableHlo.after hostOps0_3 (StableHlo.after hostOps0_2 (StableHlo.after hostOps0_1 (StableHlo.after hostOps0 W))) (Proc.devRef .tc main_v5) = _
  rw [ops03_v5, take_src, ops01_arg0, ops01_v1, ops0_arg0, ops0_v1]
theorem pre_v6 : pre W (Proc.devRef .tc main_v6) = extractStridedSlice S128x128 ![0, 0] (W (Proc.devRef .tc main_arg3)) slices_S257x128_S128x128_0_0 := by
  after_results_simp <;> rfl
theorem pre_v7 : pre W (Proc.devRef .tc main_v7) = extractStridedSlice S128x128 ![128, 0] (W (Proc.devRef .tc main_arg3)) slices_S257x128_S128x128_128_0 := by
  after_results_simp <;> rfl
theorem pre_v8 : pre W (Proc.devRef .tc main_v8) = extractStridedSlice S1x128 ![256, 0] (W (Proc.devRef .tc main_arg3)) slices_S257x128_S1x128_256_0 := by
  after_results_simp <;> rfl
theorem pre_v3 : pre W (Proc.devRef .tc main_v3) = row1 (W (Proc.devRef .tc main_arg1)) := by
  after_results_simp <;> rfl
theorem pre_arg0 : pre W (Proc.devRef .tc main_arg0) = W (Proc.devRef .tc main_arg0) := by after_results_simp <;> rfl
theorem pre_arg2 : pre W (Proc.devRef .tc main_arg2) = W (Proc.devRef .tc main_arg2) := by after_results_simp <;> rfl
theorem pre_arg4 : pre W (Proc.devRef .tc main_arg4) = W (Proc.devRef .tc main_arg4) := by after_results_simp <;> rfl
theorem pre_arg5 : pre W (Proc.devRef .tc main_arg5) = W (Proc.devRef .tc main_arg5) := by after_results_simp <;> rfl
theorem pre_arg6 : pre W (Proc.devRef .tc main_arg6) = W (Proc.devRef .tc main_arg6) := by after_results_simp <;> rfl
theorem pre_arg7 : pre W (Proc.devRef .tc main_arg7) = W (Proc.devRef .tc main_arg7) := by after_results_simp <;> rfl
theorem pre_arg8 : pre W (Proc.devRef .tc main_arg8) = W (Proc.devRef .tc main_arg8) := by after_results_simp <;> rfl

/-! Between the two launches. -/

theorem mid_v20 : StableHlo.after hostOps1 W (Proc.devRef .tc main_v20) = aggr (W (Proc.devRef .tc main_v3)) (W (Proc.devRef .tc main_v9)) := by
  after_results <;> rfl
theorem mid_v21 : StableHlo.after hostOps1 W (Proc.devRef .tc main_v21) = extractStridedSlice S128x128 ![0, 0] (W (Proc.devRef .tc main_arg5)) slices_S256x128_S128x128_0_0 := by
  after_results_simp <;> rfl
theorem mid_v22 : StableHlo.after hostOps1 W (Proc.devRef .tc main_v22) = extractStridedSlice S128x128 ![128, 0] (W (Proc.devRef .tc main_arg5)) slices_S256x128_S128x128_128_0 := by
  after_results_simp <;> rfl
theorem mid_arg0 : StableHlo.after hostOps1 W (Proc.devRef .tc main_arg0) = W (Proc.devRef .tc main_arg0) := by after_results_simp <;> rfl
theorem mid_arg6 : StableHlo.after hostOps1 W (Proc.devRef .tc main_arg6) = W (Proc.devRef .tc main_arg6) := by after_results_simp <;> rfl
theorem mid_arg7 : StableHlo.after hostOps1 W (Proc.devRef .tc main_arg7) = W (Proc.devRef .tc main_arg7) := by after_results_simp <;> rfl
theorem mid_arg8 : StableHlo.after hostOps1 W (Proc.devRef .tc main_arg8) = W (Proc.devRef .tc main_arg8) := by after_results_simp <;> rfl

/-! After the second launch. -/

theorem post_v23 : StableHlo.after hostOps2 W (Proc.devRef .tc main_v23) = W (Proc.devRef .tc main_v23) := by after_results_simp <;> rfl
theorem post_v25 : StableHlo.after hostOps2 W (Proc.devRef .tc main_v25)
    = cmpf .ogt (W (Proc.devRef .tc main_v23)) (broadcastInDim S20000x1 ![] bcast_S_S20000x1 (constant S_ .f32 0x3F000000#32)) := by
  after_results_simp <;> rfl

end Cert.KernelIdeal.HostFold

end
-- ==== Proof.Spec.lean ====
/-
  The two dense stages of the message-passing layer, written once over the extended reals.

  An edge's message is its destination row times the first block of the message weights, plus its source row times the
  second block, plus its one edge attribute times the last weight row, plus the bias. A node's probability is the
  logistic function of its logit; the logit is the classifier's weights against the node's hidden row, plus the
  classifier's bias; the hidden row is the node's own row times the first block of the update weights, plus its
  aggregated message row times the second block, plus the update bias.
-/
import Idealize.ShloMosaic.PureOps.Ideal.Laws
import Idealize.ShloMosaic.Lib.ValueIdx

noncomputable section

open scoped BigOperators

namespace Cert.Gnn

open Idealize.ShloMosaic Idealize.ShloMosaic.ValueIdx

/-- Edges by channels, edges by one, a square weight block, one weight row, a bias; nodes by channels, nodes by one,
    the classifier's column, its one bias. -/
abbrev EC : Shape := ⟨2, ![640000, 128]⟩
abbrev E1 : Shape := ⟨2, ![640000, 1]⟩
abbrev CC : Shape := ⟨2, ![128, 128]⟩
abbrev RC : Shape := ⟨2, ![1, 128]⟩
abbrev C_ : Shape := ⟨1, ![128]⟩
abbrev NC : Shape := ⟨2, ![20000, 128]⟩
abbrev N1 : Shape := ⟨2, ![20000, 1]⟩
abbrev C1 : Shape := ⟨2, ![128, 1]⟩
abbrev B1 : Shape := ⟨1, ![1]⟩

/-- The message of edge `e` at channel `c`. -/
def msgAt (xd xs : EC.Idx → EReal) (ea : E1.Idx → EReal) (g1 g2 : CC.Idx → EReal) (g3 : RC.Idx → EReal)
    (gb : C_.Idx → EReal) (e : Fin 640000) (c : Fin 128) : EReal :=
  (((∑ k : Fin 128, xd (ix2 e k) * g1 (ix2 k c)) + (∑ k : Fin 128, xs (ix2 e k) * g2 (ix2 k c)))
    + ea (ix2 e 0) * g3 (ix2 0 c)) + gb (ix1 c)

/-- The message array. -/
def msg (xd xs : EC.Idx → EReal) (ea : E1.Idx → EReal) (g1 g2 : CC.Idx → EReal) (g3 : RC.Idx → EReal)
    (gb : C_.Idx → EReal) : EC.Idx → EReal :=
  fun i => msgAt xd xs ea g1 g2 g3 gb (i 0) (i 1)

/-- The hidden row of node `n` at channel `k`. -/
def hidAt (xa ag : NC.Idx → EReal) (f1 f2 : CC.Idx → EReal) (fb : C_.Idx → EReal) (n : Fin 20000) (k : Fin 128) : EReal :=
  ((∑ j : Fin 128, xa (ix2 n j) * f1 (ix2 j k)) + (∑ j : Fin 128, ag (ix2 n j) * f2 (ix2 j k))) + fb (ix1 k)

/-- The probability of node `n`. -/
def probAt (xa ag : NC.Idx → EReal) (f1 f2 : CC.Idx → EReal) (fb : C_.Idx → EReal) (cw : C1.Idx → EReal)
    (cb : B1.Idx → EReal) (n : Fin 20000) : EReal :=
  Ideal.logistic ((∑ k : Fin 128, hidAt xa ag f1 f2 fb n k * cw (ix2 k 0)) + cb (ix1 0))

/-- The probability array. -/
def prob (xa ag : NC.Idx → EReal) (f1 f2 : CC.Idx → EReal) (fb : C_.Idx → EReal) (cw : C1.Idx → EReal)
    (cb : B1.Idx → EReal) : N1.Idx → EReal :=
  fun i => probAt xa ag f1 f2 fb cw cb (i 0)

end Cert.Gnn

end
-- ==== Proof.KernelValue.lean ====
/-
  The kernel's two results as functions of its argument arrays. The program is: plain array operations, the
  message launch, plain array operations (the segment sums and the mean), the update launch, one comparison. With
  each launch's output array read as one whole-array function of the arrays it is given (the two hypotheses below), the
  fold through the program composes them: the probabilities are the update stage at the node rows and the mean message
  of the message stage at the gathered rows; the decisions compare them with one half.
-/
import proofs.«430626_j16037407883356_1_alg».proof.Proof.HostFold
import proofs.«430626_j16037407883356_1_alg».proof.Proof.Spec

set_option maxRecDepth 16384

noncomputable section

namespace Cert.KernelIdeal.KVal

open Cert.KernelIdeal Cert.KernelIdeal.Gen Cert.KernelIdeal.HostFold
open Idealize.ShloMosaic Idealize.ShloMosaic.TcCoe Idealize.SL.Sem Idealize.ShloMosaic.StableHlo

/-- The message array the first launch leaves, from the arguments. -/
def msgs (x0 : FVec Ideal S20000x128 .f32) (x1 : IVec S2x640000 32) (x2 : FVec Ideal S640000x1 .f32)
    (x3 : FVec Ideal S257x128 .f32) (x4 : FVec Ideal S128 .f32) : FVec Ideal S640000x128 .f32 :=
  Cert.Gnn.msg (take x0 (row1 x1)) (take x0 (row0 x1)) x2
    (extractStridedSlice S128x128 ![0, 0] x3 slices_S257x128_S128x128_0_0)
    (extractStridedSlice S128x128 ![128, 0] x3 slices_S257x128_S128x128_128_0)
    (extractStridedSlice S1x128 ![256, 0] x3 slices_S257x128_S1x128_256_0) x4

/-- The probabilities the second launch leaves, from the arguments. -/
def probs (x0 : FVec Ideal S20000x128 .f32) (x1 : IVec S2x640000 32) (x2 : FVec Ideal S640000x1 .f32)
    (x3 : FVec Ideal S257x128 .f32) (x4 : FVec Ideal S128 .f32) (x5 : FVec Ideal S256x128 .f32) (x6 : FVec Ideal S128 .f32)
    (x7 : FVec Ideal S128x1 .f32) (x8 : FVec Ideal S1 .f32) : FVec Ideal S20000x1 .f32 :=
  Cert.Gnn.prob x0 (aggr (row1 x1) (msgs x0 x1 x2 x3 x4))
    (extractStridedSlice S128x128 ![0, 0] x5 slices_S256x128_S128x128_0_0)
    (extractStridedSlice S128x128 ![128, 0] x5 slices_S256x128_S128x128_128_0) x6 x7 x8

/-- The decisions: a probability above one half. -/
def decisions (x0 : FVec Ideal S20000x128 .f32) (x1 : IVec S2x640000 32) (x2 : FVec Ideal S640000x1 .f32)
    (x3 : FVec Ideal S257x128 .f32) (x4 : FVec Ideal S128 .f32) (x5 : FVec Ideal S256x128 .f32) (x6 : FVec Ideal S128 .f32)
    (x7 : FVec Ideal S128x1 .f32) (x8 : FVec Ideal S1 .f32) : IVec S20000x1 1 :=
  cmpf .ogt (probs x0 x1 x2 x3 x4 x5 x6 x7 x8) (broadcastInDim S20000x1 ![] bcast_S_S20000x1 (constant S_ .f32 0x3F000000#32))

variable (m : (ℓ : Loc nD τ sig) → Buf (Elt Ideal) ℓ) (ρ : Dev nD → PrngReg)

/-- What the message launch leaves, as one function of the arrays it is given. -/
abbrev MsgFinal : Prop :=
  ∀ (V : (c : Dev nD) → (b : Ref sig .tc) → Buf (Elt Ideal) ((c : Thread nD τ).loc b)) (c : Dev nD),
    (dat0 (F := Ideal) V c).arrAt 7 cfg0.N
      = Cert.Gnn.msg (V c main_v4) (V c main_v5) (V c main_arg2) (V c main_v6) (V c main_v7) (V c main_v8) (V c main_arg4)

/-- What the update launch leaves, as one function of the arrays it is given. -/
abbrev UpdFinal : Prop :=
  ∀ (V : (c : Dev nD) → (b : Ref sig .tc) → Buf (Elt Ideal) ((c : Thread nD τ).loc b)) (c : Dev nD),
    (dat1 (F := Ideal) V c).arrAt 7 cfg1.N
      = Cert.Gnn.prob (V c main_arg0) (V c main_v20) (V c main_v21) (V c main_v22) (V c main_arg6) (V c main_arg7) (V c main_arg8)

theorem W5_v9 (hmsg : MsgFinal) (c : Dev nD) :
    W5 m ρ c (Proc.devRef .tc main_v9)
      = msgs (m ((c : Thread nD τ).loc main_arg0)) (m ((c : Thread nD τ).loc main_arg1)) (m ((c : Thread nD τ).loc main_arg2))
          (m ((c : Thread nD τ).loc main_arg3)) (m ((c : Thread nD τ).loc main_arg4)) := by
  refine (W5_arr m ρ c 7).trans ?_
  rw [hmsg (V4 m ρ) c]
  show Cert.Gnn.msg (pre (W0 m ρ c) (Proc.devRef .tc main_v4)) (pre (W0 m ρ c) (Proc.devRef .tc main_v5)) (pre (W0 m ρ c) (Proc.devRef .tc main_arg2))
    (pre (W0 m ρ c) (Proc.devRef .tc main_v6)) (pre (W0 m ρ c) (Proc.devRef .tc main_v7)) (pre (W0 m ρ c) (Proc.devRef .tc main_v8)) (pre (W0 m ρ c) (Proc.devRef .tc main_arg4)) = _
  rw [pre_v4, pre_v5, pre_v6, pre_v7, pre_v8, pre_arg2, pre_arg4]
  rfl

theorem W8_v23 (hmsg : MsgFinal) (hupd : UpdFinal) (c : Dev nD) :
    W8 m ρ c (Proc.devRef .tc main_v23)
      = probs (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  show StableHlo.after hostOps2 (W7 m ρ c) (Proc.devRef .tc main_v23) = _
  rw [post_v23]
  refine (W7_arr m ρ c 7).trans ?_
  rw [hupd (V6 m ρ) c]
  show Cert.Gnn.prob (StableHlo.after hostOps1 (W5 m ρ c) (Proc.devRef .tc main_arg0)) (StableHlo.after hostOps1 (W5 m ρ c) (Proc.devRef .tc main_v20))
    (StableHlo.after hostOps1 (W5 m ρ c) (Proc.devRef .tc main_v21)) (StableHlo.after hostOps1 (W5 m ρ c) (Proc.devRef .tc main_v22))
    (StableHlo.after hostOps1 (W5 m ρ c) (Proc.devRef .tc main_arg6)) (StableHlo.after hostOps1 (W5 m ρ c) (Proc.devRef .tc main_arg7))
    (StableHlo.after hostOps1 (W5 m ρ c) (Proc.devRef .tc main_arg8)) = _
  rw [mid_arg0, mid_v20, mid_v21, mid_v22, mid_arg6, mid_arg7, mid_arg8, W5_v9 m ρ hmsg c]
  rw [W5_of_ne m ρ c main_v3 (by decide), W5_of_ne m ρ c main_arg0 (by decide), W5_of_ne m ρ c main_arg5 (by decide),
    W5_of_ne m ρ c main_arg6 (by decide), W5_of_ne m ρ c main_arg7 (by decide), W5_of_ne m ρ c main_arg8 (by decide)]
  have e4 : W4 m ρ c = pre (W0 m ρ c) := rfl
  rw [e4, pre_arg0, pre_v3, pre_arg5, pre_arg6, pre_arg7, pre_arg8]
  rfl

theorem W8_v25 (hmsg : MsgFinal) (hupd : UpdFinal) (c : Dev nD) :
    W8 m ρ c (Proc.devRef .tc main_v25)
      = decisions (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  show StableHlo.after hostOps2 (W7 m ρ c) (Proc.devRef .tc main_v25) = _
  rw [post_v25]
  have h := W8_v23 m ρ hmsg hupd c
  have h' : W7 m ρ c (Proc.devRef .tc main_v23) = W8 m ρ c (Proc.devRef .tc main_v23) := (post_v23 (W7 m ρ c)).symm
  rw [h', h]
  rfl

end Cert.KernelIdeal.KVal

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.MsgPayload.lean ====
/-
  The message kernel's arithmetic, read at one entry. For a block of 3200 edges, the value stored at edge row `p` and
  channel `q` is the destination row against column `q` of the first weight block, plus the source row against column
  `q` of the second weight block, plus the edge's one attribute times entry `q` of the last weight row, plus entry
  `q` of the bias. Over the extended reals the narrowing of the operands to sixteen bits is the identity, a cast to
  the same shape is the identity, and the matrix unit's product into a zero accumulator is the exact sum.
-/
import proofs.«430626_j16037407883356_1_alg».proof.Proof.Gen.KernelIdeal.Skeleton
import proofs.«430626_j16037407883356_1_alg».proof.Proof.LibPlainDot
import Idealize.ShloMosaic.Lib.ValueLayout
import Idealize.ShloMosaic.Lib.ValueIdx
import Idealize.ShloMosaic.PureOps.Ideal.Laws

noncomputable section

open scoped BigOperators

namespace Cert.KernelIdeal.MsgPayload

open Cert.KernelIdeal Idealize.ShloMosaic Idealize.ShloMosaic.ValueIdx

/-- The printed dimension numbers of both products are those of rows × contraction by contraction × columns. -/
theorem dot_eq_plain :
    dot_S3200x128_S128x128_S3200x128_1_0_0_1_n_n = DotDims.plain 3200 128 128 := rfl

/-- One column spread over many: an `[a, 1]` array broadcast to `[a, b]` reads, at `(p, c)`, row `p`'s one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One product of the kernel, at one entry: a block of edge rows, narrowed, against a weight block, narrowed, summed
    into zero, is the exact sum over the contracted channel. -/
theorem product_apply (A : FVec Ideal S3200x128 .f32) (B : FVec Ideal S128x128 .f32) (p : Fin 3200) (q : Fin 128) :
    matmul dot_S3200x128_S128x128_S3200x128_1_0_0_1_n_n none (truncf .bf16 A Gen.bitsLt_bf16_f32)
        (truncf .bf16 B Gen.bitsLt_bf16_f32) (constant (F := Ideal) S3200x128 .f32 0x00000000#32) (ix2 p q)
      = ∑ k : Fin 128, A (ix2 p k) * B (ix2 k q) := by
  rw [dot_eq_plain]
  exact Cert.LibPlainDot.matmul_plain_apply 3200 128 128 none _ _ p q

/-- The stored value at edge row `p`, channel `q`. -/
theorem payload_apply (x0 x1 : Vec Ideal S3200x128 .f32) (g1 g2 : Vec Ideal S128x128 .f32)
    (ea : Vec Ideal S3200x1 .f32) (g3 : Vec Ideal S1x128 .f32) (gb : Vec Ideal S128 .f32)
    (p : Fin 3200) (q : Fin 128) :
    Gen.k0_pay1 (F := Ideal) x0 x1 g1 g2 ea g3 gb (ix2 p q)
      = (((∑ k : Fin 128, x0 (ix2 p k) * g1 (ix2 k q)) + (∑ k : Fin 128, x1 (ix2 p k) * g2 (ix2 k q)))
          + ea (ix2 p 0) * g3 (ix2 0 q)) + gb (ix1 q) := by
  unfold Gen.k0_pay1
  simp only [shapeCast_self]
  rw [addf_apply, addf_apply, addf_apply, mulf_apply]
  refine congrArg₂ (· + ·) (congrArg₂ (· + ·) (congrArg₂ (· + ·) ?_ ?_) (congrArg₂ (· * ·) ?_ ?_)) ?_
  · exact product_apply x0 g1 p q
  · exact product_apply x1 g2 p q
  · exact broadcastTo_a1_ab_apply ea _ p q
  · exact broadcastTo_1b_ab_apply g3 _ p q
  · refine (broadcastTo_1b_ab_apply _ _ p q).trans ?_
    exact shapeCast_a_1a_apply gb _ 0 q

end Cert.KernelIdeal.MsgPayload

end
-- ==== Proof.MsgRegion.lean ====
/-
  The first region as one function of the arrays it finds. The grid has 200 points; point `t` reads rows
  `3200 t … 3200 t + 3199` of the destination rows, of the source rows and of the edge attributes, the whole of the
  two weight blocks, of the last weight row and of the bias, and writes rows `3200 t … 3200 t + 3199` of the message
  array. What it writes at row `p` of its block and channel `q` is the message of edge `3200 t + p` at channel `q`;
  the 200 blocks tile the 640000 rows, so the array ends holding the message array.
-/
import proofs.«430626_j16037407883356_1_alg».proof.Proof.Gen.KernelIdeal.Frame
import proofs.«430626_j16037407883356_1_alg».proof.Proof.Spec
import proofs.«430626_j16037407883356_1_alg».proof.Proof.MsgPayload
import Idealize.ShloMosaic.Lib.Pipeline.Value

noncomputable section

open scoped BigOperators

namespace Cert.KernelIdeal.MsgRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The windows' arrays, in operand order -/

theorem arr0 : Pipeline.arrRef spec0 0 = main_v4 := rfl
theorem arr1 : Pipeline.arrRef spec0 1 = main_v5 := rfl
theorem arr2 : Pipeline.arrRef spec0 2 = main_arg2 := rfl
theorem arr3 : Pipeline.arrRef spec0 3 = main_v6 := rfl
theorem arr4 : Pipeline.arrRef spec0 4 = main_v7 := rfl
theorem arr5 : Pipeline.arrRef spec0 5 = main_v8 := rfl
theorem arr6 : Pipeline.arrRef spec0 6 = main_arg4 := rfl
theorem arr7 : Pipeline.arrRef spec0 7 = main_v9 := rfl

theorem zeros2 : (![0, 0] : Fin 2 → Nat) = fun _ => 0 := funext fun a => by fin_cases a <;> rfl
theorem zeros1 : (![0] : Fin 1 → Nat) = fun _ => 0 := funext fun a => by fin_cases a; rfl

/-- The message array of the arrays the region finds. -/
abbrev msgOf (c : Dev nD) : Cert.Gnn.EC.Idx → EReal :=
  Cert.Gnn.msg (V c main_v4) (V c main_v5) (V c main_arg2) (V c main_v6) (V c main_v7) (V c main_v8) (V c main_arg4)

/-- The printed index maps over the grid: the three row windows and the output move to block `t` of the rows at point
    `t`; the weights and the bias stay at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## Each window's block at a point, as entries of its array -/

/-- Row `p` of the destination rows' block at point `t` is row `3200 t + p` of the destination rows. -/
theorem dstBlock_apply (c : Dev nD) (t : Fin cfg0.N) (p : Fin 3200) (k : Fin 128) (e : Fin 640000)
    (he : e.val = t.val * 3200 + p.val) :
    (Gen.iblk0 V c 0 t : Vec Ideal S3200x128 .f32) (ix2 p k) = (V c main_v4 : S640000x128.Idx → EReal) (ix2 e k) := by
  obtain ⟨h0, h1, -⟩ := index_facts t
  unfold Gen.iblk0
  rw [View.read_apply]
  show (V c main_v4 : S640000x128.Idx → EReal) _ = (V c main_v4 : S640000x128.Idx → EReal) _
  refine congrArg (V c main_v4 : S640000x128.Idx → EReal) (funext fun a => Fin.ext ?_)
  match a with
  | ⟨0, _⟩ => show win0_0.index t (0 : Fin 2) * 3200 + 1 * p.val = e.val; rw [h0, he]; omega
  | ⟨1, _⟩ => show win0_0.index t (1 : Fin 2) * 128 + 1 * k.val = k.val; rw [h1]; omega

/-- Row `p` of the source rows' block at point `t` is row `3200 t + p` of the source rows. -/
theorem srcBlock_apply (c : Dev nD) (t : Fin cfg0.N) (p : Fin 3200) (k : Fin 128) (e : Fin 640000)
    (he : e.val = t.val * 3200 + p.val) :
    (Gen.iblk0 V c 1 t : Vec Ideal S3200x128 .f32) (ix2 p k) = (V c main_v5 : S640000x128.Idx → EReal) (ix2 e k) := by
  obtain ⟨-, -, h0, h1, -⟩ := index_facts t
  unfold Gen.iblk0
  rw [View.read_apply]
  show (V c main_v5 : S640000x128.Idx → EReal) _ = (V c main_v5 : S640000x128.Idx → EReal) _
  refine congrArg (V c main_v5 : S640000x128.Idx → EReal) (funext fun a => Fin.ext ?_)
  match a with
  | ⟨0, _⟩ => show win0_1.index t (0 : Fin 2) * 3200 + 1 * p.val = e.val; rw [h0, he]; omega
  | ⟨1, _⟩ => show win0_1.index t (1 : Fin 2) * 128 + 1 * k.val = k.val; rw [h1]; omega

/-- Entry `p` of the edge attributes' block at point `t` is the attribute of edge `3200 t + p`. -/
theorem attrBlock_apply (c : Dev nD) (t : Fin cfg0.N) (p : Fin 3200) (u : Fin 1) (e : Fin 640000)
    (he : e.val = t.val * 3200 + p.val) :
    (Gen.iblk0 V c 2 t : Vec Ideal S3200x1 .f32) (ix2 p u) = (V c main_arg2 : S640000x1.Idx → EReal) (ix2 e u) := by
  obtain ⟨-, -, -, -, h0, h1, -⟩ := index_facts t
  unfold Gen.iblk0
  rw [View.read_apply]
  show (V c main_arg2 : S640000x1.Idx → EReal) _ = (V c main_arg2 : S640000x1.Idx → EReal) _
  refine congrArg (V c main_arg2 : S640000x1.Idx → EReal) (funext fun a => Fin.ext ?_)
  match a with
  | ⟨0, _⟩ => show win0_2.index t (0 : Fin 2) * 3200 + 1 * p.val = e.val; rw [h0, he]; omega
  | ⟨1, _⟩ => show win0_2.index t (1 : Fin 2) * 1 + 1 * u.val = u.val; rw [h1]; omega

/-- The first weight block's window is the whole block at every point. -/
theorem firstWeights_apply (c : Dev nD) (t : Fin cfg0.N) (k q : Fin 128) :
    (Gen.iblk0 V c 3 t : Vec Ideal S128x128 .f32) (ix2 k q) = (V c main_v6 : S128x128.Idx → EReal) (ix2 k q) := by
  obtain ⟨-, -, -, -, -, -, h0, h1, -⟩ := index_facts t
  unfold Gen.iblk0
  rw [View.read_apply]
  show (V c main_v6 : S128x128.Idx → EReal) _ = (V c main_v6 : S128x128.Idx → EReal) _
  refine congrArg (V c main_v6 : S128x128.Idx → EReal) (funext fun a => Fin.ext ?_)
  match a with
  | ⟨0, _⟩ => show win0_3.index t (0 : Fin 2) * 128 + 1 * k.val = k.val; rw [h0]; omega
  | ⟨1, _⟩ => show win0_3.index t (1 : Fin 2) * 128 + 1 * q.val = q.val; rw [h1]; omega

/-- The second weight block's window is the whole block at every point. -/
theorem secondWeights_apply (c : Dev nD) (t : Fin cfg0.N) (k q : Fin 128) :
    (Gen.iblk0 V c 4 t : Vec Ideal S128x128 .f32) (ix2 k q) = (V c main_v7 : S128x128.Idx → EReal) (ix2 k q) := by
  obtain ⟨-, -, -, -, -, -, -, -, h0, h1, -⟩ := index_facts t
  unfold Gen.iblk0
  rw [View.read_apply]
  show (V c main_v7 : S128x128.Idx → EReal) _ = (V c main_v7 : S128x128.Idx → EReal) _
  refine congrArg (V c main_v7 : S128x128.Idx → EReal) (funext fun a => Fin.ext ?_)
  match a with
  | ⟨0, _⟩ => show win0_4.index t (0 : Fin 2) * 128 + 1 * k.val = k.val; rw [h0]; omega
  | ⟨1, _⟩ => show win0_4.index t (1 : Fin 2) * 128 + 1 * q.val = q.val; rw [h1]; omega

/-- The last weight row's window is the whole row at every point. -/
theorem lastRow_apply (c : Dev nD) (t : Fin cfg0.N) (u : Fin 1) (q : Fin 128) :
    (Gen.iblk0 V c 5 t : Vec Ideal S1x128 .f32) (ix2 u q) = (V c main_v8 : S1x128.Idx → EReal) (ix2 u q) := by
  obtain ⟨-, -, -, -, -, -, -, -, -, -, h0, h1, -⟩ := index_facts t
  unfold Gen.iblk0
  rw [View.read_apply]
  show (V c main_v8 : S1x128.Idx → EReal) _ = (V c main_v8 : S1x128.Idx → EReal) _
  refine congrArg (V c main_v8 : S1x128.Idx → EReal) (funext fun a => Fin.ext ?_)
  match a with
  | ⟨0, _⟩ => show win0_5.index t (0 : Fin 2) * 1 + 1 * u.val = u.val; rw [h0]; omega
  | ⟨1, _⟩ => show win0_5.index t (1 : Fin 2) * 128 + 1 * q.val = q.val; rw [h1]; omega

/-- The bias's window is the whole bias at every point. -/
theorem bias_apply (c : Dev nD) (t : Fin cfg0.N) (q : Fin 128) :
    (Gen.iblk0 V c 6 t : Vec Ideal S128 .f32) (ix1 q) = (V c main_arg4 : S128.Idx → EReal) (ix1 q) := by
  obtain ⟨-, -, -, -, -, -, -, -, -, -, -, -, h0, -⟩ := index_facts t
  unfold Gen.iblk0
  rw [View.read_apply]
  show (V c main_arg4 : S128.Idx → EReal) _ = (V c main_arg4 : S128.Idx → EReal) _
  refine congrArg (V c main_arg4 : S128.Idx → EReal) (funext fun a => Fin.ext ?_)
  match a with
  | ⟨0, _⟩ => show win0_6.index t (0 : Fin 1) * 128 + 1 * q.val = q.val; rw [h0]; omega

/-! ## What a point writes -/

/-- At row `p` of its block and channel `q`, point `t` stores the message of edge `3200 t + p` at channel `q`. -/
theorem written_apply (c : Dev nD) (t : Fin cfg0.N) (p : Fin 3200) (q : Fin 128) (e : Fin 640000)
    (he : e.val = t.val * 3200 + p.val) :
    Gen.k0_pay1 (F := Ideal) (Gen.iblk0 V c 0 t) (Gen.iblk0 V c 1 t) (Gen.iblk0 V c 3 t) (Gen.iblk0 V c 4 t)
        (Gen.iblk0 V c 2 t) (Gen.iblk0 V c 5 t) (Gen.iblk0 V c 6 t) (ix2 p q)
      = msgOf V c (ix2 e q) := by
  refine (MsgPayload.payload_apply (Gen.iblk0 V c 0 t) (Gen.iblk0 V c 1 t) (Gen.iblk0 V c 3 t) (Gen.iblk0 V c 4 t)
    (Gen.iblk0 V c 2 t) (Gen.iblk0 V c 5 t) (Gen.iblk0 V c 6 t) p q).trans ?_
  show _ = Cert.Gnn.msgAt (V c main_v4) (V c main_v5) (V c main_arg2) (V c main_v6) (V c main_v7) (V c main_v8)
    (V c main_arg4) e q
  unfold Cert.Gnn.msgAt
  refine congrArg₂ (· + ·) (congrArg₂ (· + ·) (congrArg₂ (· + ·) ?_ ?_) (congrArg₂ (· * ·) ?_ ?_)) ?_
  · exact Finset.sum_congr rfl fun k _ =>
      congrArg₂ (· * ·) (dstBlock_apply V c t p k e he) (firstWeights_apply V c t k q)
  · exact Finset.sum_congr rfl fun k _ =>
      congrArg₂ (· * ·) (srcBlock_apply V c t p k e he) (secondWeights_apply V c t k q)
  · exact attrBlock_apply V c t p 0 e he
  · exact lastRow_apply V c t 0 q
  · exact bias_apply V c t q

/-- What point `t` writes back is its block of the message array. -/
theorem flushed_eq (c : Dev nD) (t : Fin cfg0.N) :
    (Gen.dat0 (F := Ideal) V c).flushed 7 t = ((cfg0.win 7).blk t).view.read (Elt Ideal) (msgOf V c) := by
  show (cfg0.win 7).cut (grid0.coords t) ((Gen.dat0 (F := Ideal) V c).after 7 t) = _
  rw [Gen.after0_7]
  unfold Gen.out0_7
  rw [View.canon_unit_zero zeros2]
  simp only [View.ld_unit_zero (S := S3200x128) zeros2, View.ld_unit_zero (S := S128x128) zeros2,
    View.ld_unit_zero (S := S3200x1) zeros2, View.ld_unit_zero (S := S1x128) zeros2, View.ld_unit_zero (S := S128) zeros1]
  funext j
  obtain ⟨p, q, rfl⟩ : ∃ (p : Fin 3200) (q : Fin 128), j = ix2 p q := ⟨j 0, j 1, eq_ix2 j⟩
  have hN : cfg0.N = 200 := Gen.N_0
  have ht : t.val < 200 := hN ▸ t.isLt
  have hp : p.val < 3200 := p.isLt
  refine (written_apply V c t p q ⟨t.val * 3200 + p.val, by omega⟩ rfl).trans ?_
  show msgOf V c _ = msgOf V c (((cfg0.win 7).blk t).view.emb (ix2 p q))
  refine congrArg (msgOf V c) (funext fun a => Fin.ext ?_)
  obtain ⟨-, -, -, -, -, -, -, -, -, -, -, -, -, h0, h1⟩ := index_facts t
  match a with
  | ⟨0, _⟩ => show t.val * 3200 + p.val = win0_7.index t (0 : Fin 2) * 3200 + 1 * p.val; rw [h0]; omega
  | ⟨1, _⟩ => show q.val = win0_7.index t (1 : Fin 2) * 128 + 1 * q.val; rw [h1]; omega

/-! ## The blocks tile the rows -/

/-- An index of the message array is in point `t`'s block iff each coordinate is in the block's range on its axis. -/
theorem mem_block (t : Fin cfg0.N) (i : S640000x128.Idx) :
    i ∈ ((cfg0.win 7).blk t).view.set ↔ ∀ a : Fin 2, win0_7.index t a * S3200x128.size a ≤ (i a).val
      ∧ (i a).val < win0_7.index t a * S3200x128.size a + S3200x128.size a := by
  show i ∈ ((View.whole main_v9).slice (win0_7.rect t)).set ↔ _
  rw [View.set_slice_whole, Rect.mem_set_unit]
  exact Iff.rfl

/-- Row `r` lies in the block of point `r / 3200`, which writes back. -/
theorem covered (i : S640000x128.Idx) :
    ∃ t : Fin cfg0.N, (cfg0.win 7).flush t = true ∧ i ∈ ((cfg0.win 7).blk t).view.set := by
  have hN : cfg0.N = 200 := Gen.N_0
  have hi0 : (i 0).val < 640000 := (i 0).isLt
  have hi1 : (i 1).val < 128 := (i 1).isLt
  have hlt : (i 0).val / 3200 < cfg0.N := by rw [hN]; omega
  obtain ⟨-, -, -, -, -, -, -, -, -, -, -, -, -, h0, h1⟩ := index_facts ⟨(i 0).val / 3200, hlt⟩
  refine ⟨⟨(i 0).val / 3200, hlt⟩, Gen.flush0_7 _, ?_⟩
  rw [mem_block]
  intro a
  match a with
  | ⟨0, _⟩ =>
    show win0_7.index ⟨(i 0).val / 3200, hlt⟩ (0 : Fin 2) * 3200 ≤ (i 0).val
      ∧ (i 0).val < win0_7.index ⟨(i 0).val / 3200, hlt⟩ (0 : Fin 2) * 3200 + 3200
    rw [h0]; show (i 0).val / 3200 * 3200 ≤ (i 0).val ∧ (i 0).val < (i 0).val / 3200 * 3200 + 3200; omega
  | ⟨1, _⟩ =>
    show win0_7.index ⟨(i 0).val / 3200, hlt⟩ (1 : Fin 2) * 128 ≤ (i 1).val
      ∧ (i 1).val < win0_7.index ⟨(i 0).val / 3200, hlt⟩ (1 : Fin 2) * 128 + 128
    rw [h1]; omega

/-! ## The array after the region -/

/-- The message array after the region is the message array of the arrays the region found. -/
theorem final (c : Dev nD) :
    (Gen.dat0 (F := Ideal) V c).arrAt 7 cfg0.N
      = Cert.Gnn.msg (V c main_v4) (V c main_v5) (V c main_arg2) (V c main_v6) (V c main_v7) (V c main_v8)
          (V c main_arg4) :=
  (Gen.dat0 (F := Ideal) V c).arrAt_eq_of_cover 7 (msgOf V c) (fun t _ => flushed_eq V c t) covered

end Cert.KernelIdeal.MsgRegion

end
-- ==== Proof.UpdPayload.lean ====
/-
  The update stage's block value at one row. A block is 4000 node rows; the stage multiplies the rows by the first
  weight block and the aggregated rows by the second, adds the two products and the bias row, multiplies the hidden
  rows by the classifier's column, adds the classifier's bias and takes the logistic function. Over the extended reals
  a narrowing of the format and a cast to the same shape change nothing, a broadcast of a row reads the row, and a
  matrix product into a zero accumulator is the exact sum over the contracted coordinate; so row `p` of the block's
  value is the logistic function of the sum over channels `k` of (hidden entry (p, k)) times (classifier entry k),
  plus the classifier's bias.
-/
import proofs.«430626_j16037407883356_1_alg».proof.Proof.Gen.KernelIdeal.Skeleton
import proofs.«430626_j16037407883356_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.UpdRegion

open Idealize.ShloMosaic Idealize.ShloMosaic.ValueIdx Cert.KernelIdeal Cert.KernelIdeal.Gen

/-- The dimension numbers of the two products onto the hidden rows are the plain "rows × contraction by contraction ×
    columns" ones, 4000 × 128 by 128 × 128. -/
theorem dot_hidden_plain : dot_S4000x128_S128x128_S4000x128_1_0_0_1_n_n = DotDims.plain 4000 128 128 := rfl

/-- The dimension numbers of the product onto the logit column likewise, 4000 × 128 by 128 × 1. -/
theorem dot_logit_plain : dot_S4000x128_S128x1_S4000x1_1_0_0_1_n_n = DotDims.plain 4000 128 1 := rfl

/-- A row broadcast down the 4000 rows of a block reads the row. -/
theorem bcast_row (v : S1x128.Idx → EReal) (h : S1x128.Broadcasts S4000x128) (p : Fin 4000) (k : Fin 128) :
    broadcastTo S4000x128 v h (ix2 p k) = v (ix2 0 k) :=
  broadcastTo_apply v h (ix2 p k) (ix2 0 k) fun a => match a with | ⟨0, _⟩ => rfl | ⟨1, _⟩ => rfl

/-- A one-entry array broadcast down a column of 4000 rows reads the entry. -/
theorem bcast_one (v : S1x1.Idx → EReal) (h : S1x1.Broadcasts S4000x1) (p : Fin 4000) :
    broadcastTo S4000x1 v h (ix2 p 0) = v (ix2 0 0) :=
  broadcastTo_apply v h (ix2 p 0) (ix2 0 0) fun a => match a with | ⟨0, _⟩ => rfl | ⟨1, _⟩ => rfl

/-- A vector of 128 entries viewed as one row: entry `k` of the row is entry `k` of the vector. -/
theorem cast_row (v : S128.Idx → EReal) (h : S128.ShapeCasts S1x128) (k : Fin 128) :
    shapeCast S1x128 v h (ix2 0 k) = v (ix1 k) :=
  shapeCast_apply v h (ix2 0 k) (ix1 k) (by
    rw [Shape.rowMajor_val_one, Shape.rowMajor_val_two]; show k.val = 0 * 128 + k.val; omega)

/-- A vector of one entry viewed as a 1 × 1 array. -/
theorem cast_one (v : S1.Idx → EReal) (h : S1.ShapeCasts S1x1) : shapeCast S1x1 v h (ix2 0 0) = v (ix1 0) :=
  shapeCast_apply v h (ix2 0 0) (ix1 0) (by rw [Shape.rowMajor_val_one, Shape.rowMajor_val_two]; rfl)

/-- The logistic function of a vector, read at an index. -/
theorem logistic_at {s : Shape} {φ : FTy} (v : FVec Ideal s φ) (i : s.Idx) : logistic v i = Ideal.logistic (v i) := rfl

/-- Row `p` of the block's value. -/
theorem pay_row (x ag : Vec Ideal S4000x128 .f32) (f1 f2 : Vec Ideal S128x128 .f32) (fb : Vec Ideal S128 .f32)
    (cw : Vec Ideal S128x1 .f32) (cb : Vec Ideal S1 .f32) (p : Fin 4000) :
    Gen.k1_pay1 (F := Ideal) x ag f1 f2 fb cw cb (ix2 p 0)
      = Ideal.logistic ((∑ k : Fin 128, (((∑ j : Fin 128, x (ix2 p j) * f1 (ix2 j k))
          + (∑ j : Fin 128, ag (ix2 p j) * f2 (ix2 j k))) + fb (ix1 k)) * cw (ix2 k 0)) + cb (ix1 0)) := by
  unfold Gen.k1_pay1
  -- the logit: the product of the hidden rows with the classifier's column, plus the classifier's bias
  rw [logistic_at, addf_apply, bcast_one, cast_one, dot_logit_plain]
  refine congrArg Ideal.logistic (congrArg (· + cb (ix1 0)) ?_)
  refine (Cert.LibPlainDot.matmul_plain_apply 4000 128 1 none _ _ p 0).trans (Finset.sum_congr rfl fun k _ => ?_)
  -- the hidden entry (p, k): the two products, plus the bias row
  rw [truncf_apply, truncf_apply, addf_apply, addf_apply, bcast_row, cast_row, dot_hidden_plain]
  refine congrArg (· * cw (ix2 k 0)) (congrArg (· + fb (ix1 k)) (congrArg₂ (· + ·) ?_ ?_))
  · -- the node rows against the first weight block
    refine (Cert.LibPlainDot.matmul_plain_apply 4000 128 128 none _ _ p k).trans (Finset.sum_congr rfl fun j _ => ?_)
    rw [truncf_apply, truncf_apply, shapeCast_self]
  · -- the aggregated rows against the second weight block
    refine (Cert.LibPlainDot.matmul_plain_apply 4000 128 128 none _ _ p k).trans (Finset.sum_congr rfl fun j _ => ?_)
    rw [truncf_apply, truncf_apply, shapeCast_self, shapeCast_self]

end Cert.KernelIdeal.UpdRegion

end
-- ==== Proof.UpdRegion.lean ====
/-
  The update stage as one function of whole arrays. The stage runs over 5 grid points; point `t` reads rows
  4000·t … 4000·t + 3999 of the node rows and of the aggregated rows, the whole of the two weight blocks, of the update
  bias, of the classifier's column and of its bias, and writes back rows 4000·t … 4000·t + 3999 of the 20000 × 1 output.
  What a point writes back is its block of the probability array `Cert.Gnn.prob` of the arrays as the stage finds
  them; the five blocks cover the output (row `r` lies in the block of point `r / 4000`), so the output ends
  holding that array.
-/
import proofs.«430626_j16037407883356_1_alg».proof.Proof.Gen.KernelIdeal.Frame
import proofs.«430626_j16037407883356_1_alg».proof.Proof.Spec
import proofs.«430626_j16037407883356_1_alg».proof.Proof.UpdPayload
import Idealize.ShloMosaic.Lib.Pipeline.Value

set_option maxRecDepth 16384

noncomputable section

open scoped BigOperators

namespace Cert.KernelIdeal.UpdRegion

open Cert.KernelIdeal Cert.KernelIdeal.Gen Idealize.ShloMosaic Idealize.ShloMosaic.TcCoe Idealize.SL.Sem
open Idealize.ShloMosaic.ValueIdx
open Idealize.ShloMosaic.Pipeline (Dat)

/-! ## One row, from blocks that are restrictions of whole arrays -/

/-- If rows `p` of the two row blocks are rows `n` of two whole arrays, and the other five blocks are five whole
    arrays, then row `p` of the block's value is the probability of node `n`. -/
theorem row_of_blocks (A0 A1 : Cert.Gnn.NC.Idx → EReal) (A2 A3 : Cert.Gnn.CC.Idx → EReal) (A4 : Cert.Gnn.C_.Idx → EReal)
    (A5 : Cert.Gnn.C1.Idx → EReal) (A6 : Cert.Gnn.B1.Idx → EReal)
    (x ag : Vec Ideal S4000x128 .f32) (f1 f2 : Vec Ideal S128x128 .f32) (fb : Vec Ideal S128 .f32)
    (cw : Vec Ideal S128x1 .f32) (cb : Vec Ideal S1 .f32) (p : Fin 4000) (n : Fin 20000)
    (hx : ∀ j : Fin 128, x (ix2 p j) = A0 (ix2 n j)) (hag : ∀ j : Fin 128, ag (ix2 p j) = A1 (ix2 n j))
    (hf1 : f1 = A2) (hf2 : f2 = A3) (hfb : fb = A4) (hcw : cw = A5) (hcb : cb = A6) :
    Gen.k1_pay1 (F := Ideal) x ag f1 f2 fb cw cb (ix2 p 0) = Cert.Gnn.probAt A0 A1 A2 A3 A4 A5 A6 n := by
  subst hf1 hf2 hfb hcw hcb
  refine (pay_row x ag f1 f2 fb cw cb p).trans ?_
  unfold Cert.Gnn.probAt Cert.Gnn.hidAt
  simp only [hx, hag]

/-! ## The printed index maps over the grid -/

theorem hz2 : (![0, 0] : Fin 2 → Nat) = fun _ => 0 := funext fun a => by fin_cases a <;> rfl
theorem hz1 : (![0] : Fin 1 → Nat) = fun _ => 0 := funext fun a => by fin_cases a; rfl

/-- The two row windows move with the output window, block by block, and stay in column block 0; the output's block
    index is the point's number. -/
theorem row_idx : ∀ t : Fin cfg1.N, win1_0.index t (0 : Fin 2) = win1_7.index t (0 : Fin 2)
    ∧ win1_0.index t (1 : Fin 2) = 0
    ∧ win1_1.index t (0 : Fin 2) = win1_7.index t (0 : Fin 2)
    ∧ win1_1.index t (1 : Fin 2) = 0
    ∧ win1_7.index t (0 : Fin 2) = t.val
    ∧ win1_7.index t (1 : Fin 2) = 0 :=
  (by decide +kernel : ∀ t : Fin grid1.N, _)

/-- The five whole-array windows stay at block 0 on every axis. -/
theorem whole_idx : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 :=
  (by decide +kernel : ∀ t : Fin grid1.N, _)

section
variable (V : (c : Dev nD) → (b : Ref sig .tc) → Buf (Elt Ideal) ((c : Thread nD τ).loc b))

/-- WHAT POINT `t` WRITES BACK is block `t` of the probability array of the arrays as the stage finds them. -/
theorem flushed_eq (c : Dev nD) (t : Fin cfg1.N) :
    (Gen.dat1 (F := Ideal) V c).flushed 7 t
      = ((cfg1.win 7).blk t).view.read (Elt Ideal)
          (Cert.Gnn.prob (V c main_arg0) (V c main_v20) (V c main_v21) (V c main_v22) (V c main_arg6) (V c main_arg7)
            (V c main_arg8)) := by
  show (cfg1.win 7).cut (grid1.coords t) ((Gen.dat1 V c).after 7 t) = _
  rw [Gen.after1_7]
  unfold Gen.out1_7
  rw [View.canon_unit_zero hz2]
  simp only [View.ld_unit_zero (S := S4000x128) hz2, View.ld_unit_zero (S := S128x128) hz2,
    View.ld_unit_zero (S := S128) hz1, View.ld_unit_zero (S := S128x1) hz2, View.ld_unit_zero (S := S1) hz1]
  obtain ⟨e00, e01, e10, e11, e70, e71⟩ := row_idx t
  obtain ⟨e20, e21, e30, e31, e40, e50, e51, e60⟩ := whole_idx t
  refine funext fun (j : S4000x1.Idx) => ?_
  obtain ⟨p, q, rfl⟩ : ∃ (p : Fin 4000) (q : Fin 1), j = ix2 p q := ⟨j 0, j 1, eq_ix2 j⟩
  obtain rfl : q = 0 := Subsingleton.elim _ _
  show Gen.k1_pay1 (F := Ideal) (iblk1 V c 0 t) (iblk1 V c 1 t) (iblk1 V c 2 t) (iblk1 V c 3 t) (iblk1 V c 4 t)
      (iblk1 V c 5 t) (iblk1 V c 6 t) (ix2 p 0)
    = Cert.Gnn.probAt (V c main_arg0) (V c main_v20) (V c main_v21) (V c main_v22) (V c main_arg6) (V c main_arg7)
        (V c main_arg8) ((((cfg1.win 7).blk t).view.emb (ix2 p 0)) 0)
  refine row_of_blocks _ _ _ _ _ _ _ _ _ _ _ _ _ _ p _ ?_ ?_ ?_ ?_ ?_ ?_ ?_
  · -- the node rows: row p of the block is row 4000·t + p of the array
    intro j
    show V c main_arg0 (((cfg1.win 0).blk t).view.emb (ix2 p j))
      = V c main_arg0 (ix2 ((((cfg1.win 7).blk t).view.emb (ix2 p 0)) 0) j)
    refine congrArg (V c main_arg0) (funext fun a => Fin.ext ?_)
    match a with
    | ⟨0, _⟩ =>
      show win1_0.index t (0 : Fin 2) * 4000 + 1 * p.val = win1_7.index t (0 : Fin 2) * 4000 + 1 * p.val
      rw [e00]
    | ⟨1, _⟩ => show win1_0.index t (1 : Fin 2) * 128 + 1 * j.val = j.val; rw [e01]; omega
  · -- the aggregated rows likewise
    intro j
    show V c main_v20 (((cfg1.win 1).blk t).view.emb (ix2 p j))
      = V c main_v20 (ix2 ((((cfg1.win 7).blk t).view.emb (ix2 p 0)) 0) j)
    refine congrArg (V c main_v20) (funext fun a => Fin.ext ?_)
    match a with
    | ⟨0, _⟩ =>
      show win1_1.index t (0 : Fin 2) * 4000 + 1 * p.val = win1_7.index t (0 : Fin 2) * 4000 + 1 * p.val
      rw [e10]
    | ⟨1, _⟩ => show win1_1.index t (1 : Fin 2) * 128 + 1 * j.val = j.val; rw [e11]; omega
  · -- the first weight block is the whole array
    funext y
    show V c main_v21 (((cfg1.win 2).blk t).view.emb y) = V c main_v21 y
    refine congrArg (V c main_v21) (funext fun a => Fin.ext ?_)
    match a with
    | ⟨0, _⟩ => show win1_2.index t (0 : Fin 2) * 128 + 1 * (y 0).val = (y 0).val; rw [e20]; omega
    | ⟨1, _⟩ => show win1_2.index t (1 : Fin 2) * 128 + 1 * (y 1).val = (y 1).val; rw [e21]; omega
  · -- the second weight block
    funext y
    show V c main_v22 (((cfg1.win 3).blk t).view.emb y) = V c main_v22 y
    refine congrArg (V c main_v22) (funext fun a => Fin.ext ?_)
    match a with
    | ⟨0, _⟩ => show win1_3.index t (0 : Fin 2) * 128 + 1 * (y 0).val = (y 0).val; rw [e30]; omega
    | ⟨1, _⟩ => show win1_3.index t (1 : Fin 2) * 128 + 1 * (y 1).val = (y 1).val; rw [e31]; omega
  · -- the update bias
    funext y
    show V c main_arg6 (((cfg1.win 4).blk t).view.emb y) = V c main_arg6 y
    refine congrArg (V c main_arg6) (funext fun a => Fin.ext ?_)
    match a with
    | ⟨0, _⟩ => show win1_4.index t (0 : Fin 1) * 128 + 1 * (y 0).val = (y 0).val; rw [e40]; omega
  · -- the classifier's column
    funext y
    show V c main_arg7 (((cfg1.win 5).blk t).view.emb y) = V c main_arg7 y
    refine congrArg (V c main_arg7) (funext fun a => Fin.ext ?_)
    match a with
    | ⟨0, _⟩ => show win1_5.index t (0 : Fin 2) * 128 + 1 * (y 0).val = (y 0).val; rw [e50]; omega
    | ⟨1, _⟩ => show win1_5.index t (1 : Fin 2) * 1 + 1 * (y 1).val = (y 1).val; rw [e51]; omega
  · -- the classifier's bias
    funext y
    show V c main_arg8 (((cfg1.win 6).blk t).view.emb y) = V c main_arg8 y
    refine congrArg (V c main_arg8) (funext fun a => Fin.ext ?_)
    match a with
    | ⟨0, _⟩ => show win1_6.index t (0 : Fin 1) * 1 + 1 * (y 0).val = (y 0).val; rw [e60]; omega

/-- A row of the output is in point `t`'s block iff each coordinate is in the block's range on its axis. -/
theorem mem_blk (t : Fin cfg1.N) (i : S20000x1.Idx) :
    i ∈ ((cfg1.win 7).blk t).view.set
      ↔ ∀ a : Fin 2, win1_7.index t a * S4000x1.size a ≤ (i a).val
          ∧ (i a).val < win1_7.index t a * S4000x1.size a + S4000x1.size a := by
  show i ∈ ((View.whole main_v23).slice (win1_7.rect t)).set ↔ _
  rw [View.set_slice_whole, Rect.mem_set_unit]
  exact Iff.rfl

/-- THE COVER: row `r` of the output lies in the block of point `r / 4000`, and every point writes back. -/
theorem covered (i : S20000x1.Idx) :
    ∃ t : Fin cfg1.N, (cfg1.win 7).flush t = true ∧ i ∈ ((cfg1.win 7).blk t).view.set := by
  have hi0 : (i 0).val < 20000 := (i 0).isLt
  have hi1 : (i 1).val < 1 := (i 1).isLt
  have hN : grid1.N = 5 := N_1
  obtain ⟨t, ht⟩ : ∃ t : Fin cfg1.N, t.val = (i 0).val / 4000 :=
    ⟨⟨(i 0).val / 4000, by show (i 0).val / 4000 < grid1.N; omega⟩, rfl⟩
  obtain ⟨-, -, -, -, e70, e71⟩ := row_idx t
  refine ⟨t, flush1_7 t, ?_⟩
  rw [mem_blk]
  intro a
  match a with
  | ⟨0, _⟩ =>
    show win1_7.index t (0 : Fin 2) * 4000 ≤ (i 0).val ∧ (i 0).val < win1_7.index t (0 : Fin 2) * 4000 + 4000
    omega
  | ⟨1, _⟩ =>
    show win1_7.index t (1 : Fin 2) * 1 ≤ (i 1).val ∧ (i 1).val < win1_7.index t (1 : Fin 2) * 1 + 1
    omega

/-- THE OUTPUT after the stage: the probability array of the arrays as the stage finds them. -/
theorem final (c : Dev nD) :
    (Gen.dat1 (F := Ideal) V c).arrAt 7 cfg1.N
      = Cert.Gnn.prob (V c main_arg0) (V c main_v20) (V c main_v21) (V c main_v22) (V c main_arg6) (V c main_arg7)
          (V c main_arg8) :=
  (Gen.dat1 (F := Ideal) V c).arrAt_eq_of_cover 7 _ (fun t _ => flushed_eq V c t) covered

end

end Cert.KernelIdeal.UpdRegion

end
-- ==== Proof.IndexRange.lean ====
/-
  The last conjunct of the precondition, read back. The precondition ends in "every entry of the integer index array
  is at least -20000 and below 20000": two signed comparisons of the array against broadcast scalar constants, their
  bitwise and, and a reduction by and over both axes, and-ed into the result. When the whole predicate is the bit 1, so is
  that reduction; a reduction by and over every axis that is 1 met a 1 at every index; and a signed comparison word that
  is 1 says the order of its operands read as integers. The two constants read signed are -20000 and 20000.
-/
import proofs.«430626_j16037407883356_1_alg».proof.Pre_finite_inputs
import Idealize.ShloMosaic.Lib.ReduceAll
import Idealize.ShloMosaic.Lib.StableHlo.Predicate
import Idealize.ShloMosaic.Lib.ValueIdx

noncomputable section

namespace Cert.Gnn.IndexRange

open Idealize.ShloMosaic Cert.Pre_finite_inputs

/-- The scalar shape has one index. -/
instance : Subsingleton S_.Idx := ⟨fun a b => funext fun d => d.elim0⟩

/-- The lower constant, read signed. -/
theorem lo_toInt : (4294947296#32 : BitVec 32).toInt = -20000 := by decide
/-- The upper constant, read signed. -/
theorem hi_toInt : (20000#32 : BitVec 32).toInt = 20000 := by decide

/-- Under the precondition every entry of the index array lies in [-20000, 20000). -/
theorem idx_range [Facts] (x0 : FVec Ideal S20000x128 .f32) (x1 : IVec S2x640000 32) (x2 : FVec Ideal S640000x1 .f32)
    (x3 : FVec Ideal S257x128 .f32) (x4 : FVec Ideal S128 .f32) (x5 : FVec Ideal S256x128 .f32) (x6 : FVec Ideal S128 .f32)
    (x7 : FVec Ideal S128x1 .f32) (x8 : FVec Ideal S1 .f32)
    (h : fn (F := Ideal) x0 x1 x2 x3 x4 x5 x6 x7 x8 = fun _ => 1#1) :
    ∀ i : S2x640000.Idx, -20000 ≤ (x1 i).toInt ∧ (x1 i).toInt < 20000 := by
  intro i
  have h0 := congrFun h ValueIdx.ix0
  dsimp only [fn, fn_part1, fn_part2] at h0
  -- the result is the and of everything before with the reduction over the index array
  obtain ⟨-, hr⟩ := IntOp.andi_eq_one.1 h0
  -- the reduction is 1: so is the word at i
  have he := Host.reduce_andi_all _ _ _ _ _ hr i
  -- that word is the and of the two comparison words
  obtain ⟨hge, hlt⟩ := IntOp.andi_eq_one.1 he
  have h1 := IntOp.cmpi_sge.1 hge
  have h2 := IntOp.cmpi_slt.1 hlt
  exact ⟨lo_toInt ▸ h1, hi_toInt ▸ h2⟩

end Cert.Gnn.IndexRange

end
-- ==== Proof.TakeRows.lean ====
/-
  The guarded row gather, under the index range. A row index x with -20000 ≤ x < 20000 (read signed) is wrapped:
  x + 20000 when x is negative, x otherwise. The wrapped index w then satisfies 0 ≤ w ≤ 19999, so the gather's guard
  "0 ≤ w and w ≤ 19999", reduced by and over its one unit axis and broadcast along the rows, is the bit 1 at every
  position: the guarded select returns the gathered row everywhere and never the fill. Last, each of the two index
  vectors handed to the gather is a row of the two-row index array, so the range holds of its entries too.
-/
import Idealize.ShloMosaic.Lib.ValueIdx
import Idealize.ShloMosaic.Lib.ReduceAll
import Idealize.ShloMosaic.Lib.StableHlo.Predicate
import Idealize.ShloMosaic.Lib.Pipeline.Value

noncomputable section

namespace Cert.Gnn.TakeRows

open Idealize.ShloMosaic

/-- A scalar, the edges, the edges by one, one, one by one, the edges by channels, the two index rows, one index row. -/
abbrev S_ : Shape := ⟨0, ![]⟩
abbrev SE : Shape := ⟨1, ![640000]⟩
abbrev SE1 : Shape := ⟨2, ![640000, 1]⟩
abbrev S1 : Shape := ⟨1, ![1]⟩
abbrev S11 : Shape := ⟨2, ![1, 1]⟩
abbrev SEC : Shape := ⟨2, ![640000, 128]⟩
abbrev S2E : Shape := ⟨2, ![2, 640000]⟩
abbrev S1E : Shape := ⟨2, ![1, 640000]⟩

/-! ## The wrapped index is in range -/

theorem zero_toInt : (0#32 : BitVec 32).toInt = 0 := by decide
theorem n_toInt : (20000#32 : BitVec 32).toInt = 20000 := by decide
theorem top_toInt : (19999#32 : BitVec 32).toInt = 19999 := by decide

/-- The wrap of a row index: 20000 more when it is negative, itself otherwise. -/
abbrev wrap (x : BitVec 32) : BitVec 32 := Scalar.select (IntOp.cmpi .slt x 0#32) (IntOp.addi x 20000#32) x

/-- The wrapped index read signed: x + 20000 for a negative x in range (the sum does not leave the 32-bit range), else x. -/
theorem wrap_toInt (x : BitVec 32) (hx : -20000 ≤ x.toInt ∧ x.toInt < 20000) :
    0 ≤ (wrap x).toInt ∧ (wrap x).toInt ≤ 19999 := by
  by_cases hneg : x.toInt < 0
  · have hc : IntOp.cmpi .slt x 0#32 = 1#1 := IntOp.cmpi_slt.2 (by rw [zero_toInt]; exact hneg)
    have hw : wrap x = x + 20000#32 := by
      show Scalar.select (IntOp.cmpi .slt x 0#32) (IntOp.addi x 20000#32) x = _
      rw [hc, ValueIdx.select_one]; rfl
    have hs : (x + 20000#32).toInt = x.toInt + 20000 := by
      rw [BitVec.toInt_add, n_toInt]
      exact Int.bmod_eq_of_le (by omega) (by omega)
    rw [hw, hs]; omega
  · have hc : IntOp.cmpi .slt x 0#32 = 0#1 :=
      ValueIdx.eq_zero_of_ne_one fun h => hneg (by have := IntOp.cmpi_slt.1 h; rwa [zero_toInt] at this)
    have hw : wrap x = x := by
      show Scalar.select (IntOp.cmpi .slt x 0#32) (IntOp.addi x 20000#32) x = _
      rw [hc, ValueIdx.select_zero]
    rw [hw]; omega

/-- Both halves of the guard hold of the wrapped index. -/
theorem wrap_in_range (x : BitVec 32) (hx : -20000 ≤ x.toInt ∧ x.toInt < 20000) :
    IntOp.cmpi .sge (wrap x) 0#32 = 1#1 ∧ IntOp.cmpi .sle (wrap x) 19999#32 = 1#1 := by
  obtain ⟨h0, h1⟩ := wrap_toInt x hx
  exact ⟨IntOp.cmpi_sge.2 (by rw [zero_toInt]; exact h0), IntOp.cmpi_sle.2 (by rw [top_toInt]; exact h1)⟩

/-! ## A reduction by and of ones, from one, is one -/

/-- A left fold by and over one-bit words, started at 1 and meeting only 1s, is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    rw [List.foldl_cons]
    refine foldl_andi_one f l _ (IntOp.andi_eq_one.2 ⟨hi, hl a (List.mem_cons_self ..)⟩) fun n hn => hl n (List.mem_cons_of_mem _ hn)

/-- A reduce by and whose operand is 1 everywhere and whose initial value is 1 is 1 everywhere. -/
theorem reduce_andi_one {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl]
  exact foldl_andi_one x _ _ hi fun n _ => hx n

/-! ## The guard never fires -/

/-- The guarded gather's select returns the gathered rows: at every position the guard bit is 1. The operations are
    the gather function's, in its order: the wrap of the index vector, its broadcast to a column, the two comparisons
    against the broadcast bounds, their and, the reduction over the unit axis, the broadcast along the rows, the select. -/
theorem take_guard_true (hb0 : S_.BroadcastsInDim SE ![]) (hb5 : SE.BroadcastsInDim SE1 ![0]) (hb6 : S_.BroadcastsInDim SE1 ![])
    (hb8 : S1.BroadcastsInDim S11 ![1]) (hb9 : S11.BroadcastsInDim SE1 ![0, 1]) (hred : SE1.ReducesTo [1] SE)
    (hS : 0 < S_.numel) (hb14 : SE.BroadcastsInDim SEC ![0])
    (idx : IVec SE 32) (hidx : ∀ e, -20000 ≤ (idx e).toInt ∧ (idx e).toInt < 20000) {α : Type} (g fill : SEC.Idx → α) :
    select (broadcastInDim SEC ![0] hb14 (Host.reduce IntOp.andi
        (andi
          (cmpi .sge
            (broadcastInDim SE1 ![0] hb5 (select (cmpi .slt idx (broadcastInDim SE ![] hb0 (constantI S_ 32 0#32)))
              (addi idx (broadcastInDim SE ![] hb0 (constantI S_ 32 20000#32))) idx))
            (broadcastInDim SE1 ![] hb6 (constantI S_ 32 0#32)))
          (cmpi .sle
            (broadcastInDim SE1 ![0] hb5 (select (cmpi .slt idx (broadcastInDim SE ![] hb0 (constantI S_ 32 0#32)))
              (addi idx (broadcastInDim SE ![] hb0 (constantI S_ 32 20000#32))) idx))
            (broadcastInDim SE1 ![0, 1] hb9 (broadcastInDim S11 ![1] hb8 (constantI S1 32 19999#32)))))
        (constantI S_ 1 1#1) hred hS)) g fill = g := by
  funext i
  rw [ValueIdx.select_apply]
  have hone : ∀ j : SE.Idx, Host.reduce IntOp.andi
        (andi
          (cmpi .sge
            (broadcastInDim SE1 ![0] hb5 (select (cmpi .slt idx (broadcastInDim SE ![] hb0 (constantI S_ 32 0#32)))
              (addi idx (broadcastInDim SE ![] hb0 (constantI S_ 32 20000#32))) idx))
            (broadcastInDim SE1 ![] hb6 (constantI S_ 32 0#32)))
          (cmpi .sle
            (broadcastInDim SE1 ![0] hb5 (select (cmpi .slt idx (broadcastInDim SE ![] hb0 (constantI S_ 32 0#32)))
              (addi idx (broadcastInDim SE ![] hb0 (constantI S_ 32 20000#32))) idx))
            (broadcastInDim SE1 ![0, 1] hb9 (broadcastInDim S11 ![1] hb8 (constantI S1 32 19999#32)))))
        (constantI S_ 1 1#1) hred hS j = 1#1 := by
    refine reduce_andi_one _ _ hred hS rfl ?_
    intro k
    -- at position k the column holds the wrap of one entry of the index vector, and the bounds are the constants
    obtain ⟨h0, h1⟩ := wrap_in_range (idx _) (hidx _)
    exact IntOp.andi_eq_one.2 ⟨h0, h1⟩
  show Scalar.select (Host.reduce IntOp.andi _ _ hred hS _) (g i) (fill i) = g i
  rw [hone, ValueIdx.select_one]

/-! ## The two index vectors are rows of the index array -/

/-- Row 0 of the index array, as a vector: its entries are entries of the array. -/
theorem row0_range (hs : S2E.Slices ![0, 0] S1E) (hc : S1E.ShapeCasts SE) (x1 : IVec S2E 32)
    (h : ∀ i : S2E.Idx, -20000 ≤ (x1 i).toInt ∧ (x1 i).toInt < 20000) :
    ∀ e : SE.Idx, -20000 ≤ ((shapeCast SE (extractStridedSlice S1E ![0, 0] x1 hs) hc) e).toInt
      ∧ ((shapeCast SE (extractStridedSlice S1E ![0, 0] x1 hs) hc) e).toInt < 20000 :=
  fun _ => h _

/-- Row 1 of the index array, as a vector: its entries are entries of the array. -/
theorem row1_range (hs : S2E.Slices ![1, 0] S1E) (hc : S1E.ShapeCasts SE) (x1 : IVec S2E 32)
    (h : ∀ i : S2E.Idx, -20000 ≤ (x1 i).toInt ∧ (x1 i).toInt < 20000) :
    ∀ e : SE.Idx, -20000 ≤ ((shapeCast SE (extractStridedSlice S1E ![1, 0] x1 hs) hc) e).toInt
      ∧ ((shapeCast SE (extractStridedSlice S1E ![1, 0] x1 hs) hc) e).toInt < 20000 :=
  fun _ => h _

end Cert.Gnn.TakeRows

end
-- ==== Proof.LibScatterRows.lean ====
/-
  The host's accumulating scatter of ROWS, read over the extended reals.

  The scatter indices are a column of row numbers, one per update row; update row `e` is added to operand row
  `idx e` (read as a signed integer; a row number outside the operand drops the update). The scatter therefore acts
  on every column by itself: entry (n, c) of the result is entry (n, c) of the operand plus the sum of the entries
  (e, c) of the updates over the rows `e` whose index is `n`. Consequently, scattering the rows of two arrays set
  side by side and then cutting the result back into the two column ranges is the same as scattering each array.
-/
import Idealize.ShloMosaic.PureOps.Ideal.Laws
import Idealize.ShloMosaic.Lib.ValueIdx
import Idealize.ShloMosaic.Lib.Pipeline.Value

noncomputable section

open scoped BigOperators

namespace Cert.LibScatterRows

open Idealize.ShloMosaic Idealize.ShloMosaic.ValueIdx

section Coordinates

variable {N E C : Nat}

/-- The dimension numbers of a row scatter: the updates' second axis is the window, the operand's first axis is the
    scattered one, and each scatter index is one scalar. -/
abbrev rowDims (hwf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := hwf }

/-- On the row axis a row scatter has no window coordinate. -/
theorem rowDims_window0 (hwf) (j : (⟨2, ![E, C]⟩ : Shape).Idx) : (rowDims (N := N) hwf).window j 0 = 0 := by
  rfl

/-- On the column axis the window coordinate is the update's column. -/
theorem rowDims_window1 (hwf) (j : (⟨2, ![E, C]⟩ : Shape).Idx) : (rowDims (N := N) hwf).window j 1 = (j 1).val := by
  rfl

/-- On the column axis the window starts at zero. -/
theorem rowDims_start1 {w : Nat} (hwf) (j : (⟨2, ![E, C]⟩ : Shape).Idx) (idx : IVec ⟨2, ![E, 1]⟩ w) :
    (rowDims (N := N) hwf).start j idx 1 = 0 := by
  rfl

/-- On the row axis the window starts at the scatter index of the update's row, read as a signed integer. -/
theorem rowDims_start0 {w : Nat} (hwf) (j : (⟨2, ![E, C]⟩ : Shape).Idx) (idx : IVec ⟨2, ![E, 1]⟩ w) :
    (rowDims (N := N) hwf).start j idx 0 = (idx (ix2 (j 0) 0)).toInt := by
  have hs : (rowDims (N := N) hwf).siIdx j ⟨0, Nat.one_pos⟩ = ix2 (j 0) 0 := by
    funext b; apply Fin.ext
    match b with
    | ⟨0, _⟩ => rfl
    | ⟨1, _⟩ => rfl
  exact congrArg (fun k => (idx k).toInt) hs

/-- Where an update entry lands, from the four coordinate facts: entry `j` of the updates lands on entry (n, c) of the
    operand exactly when the scatter index of its row is `n` and its column is `c`. -/
theorem resultIdx_iff_of_coords {w : Nat} (d : ScatterDims ⟨2, ![N, C]⟩ ⟨2, ![E, 1]⟩ ⟨2, ![E, C]⟩)
    (j : (⟨2, ![E, C]⟩ : Shape).Idx) (idx : IVec ⟨2, ![E, 1]⟩ w)
    (s0 : d.start j idx 0 = (idx (ix2 (j 0) 0)).toInt) (s1 : d.start j idx 1 = 0)
    (w0 : d.window j 0 = 0) (w1 : d.window j 1 = (j 1).val) (n : Fin N) (c : Fin C) :
    d.resultIdx? j idx = some (ix2 n c) ↔ (idx (ix2 (j 0) 0)).toInt = (n.val : ℤ) ∧ (j 1).val = c.val := by
  have hjC := idx2_lt1 j
  have hn := n.isLt
  have hc := c.isLt
  unfold ScatterDims.resultIdx?
  split
  next h =>
    rw [Option.some.injEq]
    constructor
    · intro hf
      have e0 : (d.start j idx 0 + (d.window j 0 : ℕ)).toNat = n.val := congrArg Fin.val (congrFun hf 0)
      have e1 : (d.start j idx 1 + (d.window j 1 : ℕ)).toNat = c.val := congrArg Fin.val (congrFun hf 1)
      have h0 : 0 ≤ d.start j idx 0 + (d.window j 0 : ℕ) ∧ d.start j idx 0 + (d.window j 0 : ℕ) < (N : ℤ) := h 0
      rw [s0, w0] at e0 h0
      rw [s1, w1] at e1
      constructor <;> omega
    · rintro ⟨en, ec⟩
      funext a; apply Fin.ext
      match a with
      | ⟨0, _⟩ =>
        show (d.start j idx 0 + (d.window j 0 : ℕ)).toNat = n.val
        rw [s0, w0, en]; omega
      | ⟨1, _⟩ =>
        show (d.start j idx 1 + (d.window j 1 : ℕ)).toNat = c.val
        rw [s1, w1]; omega
  next h =>
    constructor
    · intro hf; exact absurd hf (by simp)
    · rintro ⟨en, ec⟩
      exfalso; apply h
      intro a
      match a with
      | ⟨0, _⟩ =>
        show 0 ≤ d.start j idx 0 + (d.window j 0 : ℕ) ∧ d.start j idx 0 + (d.window j 0 : ℕ) < (N : ℤ)
        rw [s0, w0, en]; omega
      | ⟨1, _⟩ =>
        show 0 ≤ d.start j idx 1 + (d.window j 1 : ℕ) ∧ d.start j idx 1 + (d.window j 1 : ℕ) < (C : ℤ)
        rw [s1, w1]; omega

end Coordinates

section RowScatter

variable {N E C : Nat}

/-- The row scatter at the concrete dimension numbers, read at entry (n, c): the operand's entry plus the sum, over
    the update rows whose scatter index is `n`, of the updates' entries in column `c`. -/
theorem scatterAdd_rowDims_apply {w : Nat} (hwf) (x : FVec Ideal ⟨2, ![N, C]⟩ .f32) (idx : IVec ⟨2, ![E, 1]⟩ w)
    (upd : FVec Ideal ⟨2, ![E, C]⟩ .f32) (n : Fin N) (c : Fin C) :
    Host.scatterAdd (rowDims (N := N) hwf) x idx upd (ix2 n c)
      = x (ix2 n c) + ∑ e : Fin E, if (idx (ix2 e 0)).toInt = (n.val : ℤ) then upd (ix2 e c) else 0 := by
  have key : ∀ (e : Fin E) (b : Fin C), (rowDims (N := N) hwf).resultIdx? (ix2 e b) idx = some (ix2 n c) ↔
      ((idx (ix2 e 0)).toInt = (n.val : ℤ) ∧ b = c) := by
    intro e b
    rw [resultIdx_iff_of_coords (rowDims (N := N) hwf) (ix2 e b) idx (rowDims_start0 hwf _ idx) (rowDims_start1 hwf _ idx)
      (rowDims_window0 hwf _) (rowDims_window1 hwf _) n c]
    exact and_congr Iff.rfl Fin.val_inj
  show x (ix2 n c) + ∑ j ∈ Finset.univ.filter (fun j => (rowDims (N := N) hwf).resultIdx? j idx = some (ix2 n c)), upd j = _
  refine congrArg (fun t => x (ix2 n c) + t) ?_
  rw [Finset.sum_filter, sum_idx2]
  refine Finset.sum_congr rfl fun e _ => ?_
  by_cases hn : (idx (ix2 e 0)).toInt = (n.val : ℤ)
  · rw [if_pos hn]
    rw [Finset.sum_eq_single c (fun b _ hb => if_neg (fun h => hb ((key e b).1 h).2))
      (fun h => absurd (Finset.mem_univ c) h)]
    exact if_pos ((key e c).2 ⟨hn, rfl⟩)
  · rw [if_neg hn]
    exact Finset.sum_eq_zero fun b _ => if_neg (fun h => hn ((key e b).1 h).1)

/-- The row scatter read at an entry, for any dimension numbers whose four lists are those of a row scatter: entry
    (n, c) of the result is the operand's entry plus the sum, over the update rows `e` whose scatter index (read as a
    signed integer) is `n`, of the updates' entry (e, c). An update row whose index is no row of the operand
    contributes to no entry. -/
theorem scatterAdd_rows_apply {N E C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 := by
  cases d with
  | mk uw iw sd iv wf =>
    dsimp only at h1 h2 h3 h4
    subst h1 h2 h3 h4
    exact scatterAdd_rowDims_apply wf x idx upd n c

end RowScatter

section SideBySide

variable {N E C₁ C₂ Ct w : Nat}

/-- The dimension numbers `d` are those of a row scatter: the updates' second axis is the window, the operand's first
    axis is inserted and is the one the scatter indices address, and each scatter index is one scalar. -/
def IsRowScatter {N E C : Nat} (d : ScatterDims ⟨2, ![N, C]⟩ ⟨2, ![E, 1]⟩ ⟨2, ![E, C]⟩) : Prop :=
  d.updateWindowDims = [1] ∧ d.insertedWindowDims = [0] ∧ d.scatterDimsToOperandDims = [0] ∧ d.indexVectorDim = 1

/-- The row scatter read at an entry, with the four conditions on the dimension numbers bundled. -/
theorem scatterAdd_rows_apply' {C : Nat} {d : ScatterDims ⟨2, ![N, C]⟩ ⟨2, ![E, 1]⟩ ⟨2, ![E, C]⟩} (hd : IsRowScatter d)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 :=
  scatterAdd_rows_apply d hd.1 hd.2.1 hd.2.2.1 hd.2.2.2 x idx upd n c

/-- A scalar spread over a matrix is that scalar at every entry, whatever the matrix's extents. -/
theorem broadcast_scalar_apply {A B : Nat} (hb : (⟨0, ![]⟩ : Shape).BroadcastsInDim ⟨2, ![A, B]⟩ (![] : Fin 0 → Fin 2))
    (z : FVec Ideal ⟨0, ![]⟩ .f32) (j : (⟨2, ![A, B]⟩ : Shape).Idx) :
    broadcastInDim ⟨2, ![A, B]⟩ ![] hb z j = z (fun a => a.elim0) :=
  broadcastInDim_apply _ hb z j _ (fun a => a.elim0)

/-- Scattering the rows of two arrays set side by side, then keeping the FIRST array's columns, is scattering the
    first array's rows: a row scatter acts on each column by itself. The operand is one scalar at every entry. -/
theorem slice_left_scatterAdd_concat
    (dt : ScatterDims ⟨2, ![N, Ct]⟩ ⟨2, ![E, 1]⟩ ⟨2, ![E, Ct]⟩) (d₁ : ScatterDims ⟨2, ![N, C₁]⟩ ⟨2, ![E, 1]⟩ ⟨2, ![E, C₁]⟩)
    (ht : IsRowScatter dt) (h₁ : IsRowScatter d₁)
    (hbt : (⟨0, ![]⟩ : Shape).BroadcastsInDim ⟨2, ![N, Ct]⟩ (![] : Fin 0 → Fin 2))
    (hb₁ : (⟨0, ![]⟩ : Shape).BroadcastsInDim ⟨2, ![N, C₁]⟩ (![] : Fin 0 → Fin 2))
    (hcat : Shape.Concatenates [⟨2, ![E, C₁]⟩, ⟨2, ![E, C₂]⟩] ⟨2, ![E, Ct]⟩ 1)
    (hsl : (⟨2, ![N, Ct]⟩ : Shape).Slices ![0, 0] ⟨2, ![N, C₁]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₁]⟩ ![0, 0] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsl
      = Host.scatterAdd d₁ (broadcastInDim ⟨2, ![N, C₁]⟩ ![] hb₁ z) idx u := by
  funext i
  obtain ⟨n, c, rfl⟩ : ∃ n c, i = ix2 n c := ⟨i 0, i 1, eq_ix2 i⟩
  -- the column, as a column of the wide array
  have hcl : c.val < Ct := by
    have h : 0 + C₁ ≤ Ct := hsl.2 1
    have := c.isLt
    omega
  rw [extractStridedSlice_apply ![0, 0] _ hsl (ix2 n c) (ix2 n ⟨c.val, hcl⟩)
    (fun a => by match a with | ⟨0, _⟩ => exact (Nat.zero_add _).symm | ⟨1, _⟩ => exact (Nat.zero_add _).symm)]
  rw [scatterAdd_rows_apply' ht, scatterAdd_rows_apply' h₁, broadcast_scalar_apply, broadcast_scalar_apply]
  refine congrArg (fun t => z (fun a => a.elim0) + t) (Finset.sum_congr rfl fun e _ => ?_)
  rw [concatenate_pair_apply_left 1 u o hcat (ix2 e ⟨c.val, hcl⟩) rfl (ix2 e c)
    (fun b => by match b with | ⟨0, _⟩ => rfl | ⟨1, _⟩ => rfl)]

/-- Scattering the rows of two arrays set side by side, then keeping the SECOND array's columns, is scattering the
    second array's rows. The operand is one scalar at every entry. -/
theorem slice_right_scatterAdd_concat
    (dt : ScatterDims ⟨2, ![N, Ct]⟩ ⟨2, ![E, 1]⟩ ⟨2, ![E, Ct]⟩) (d₂ : ScatterDims ⟨2, ![N, C₂]⟩ ⟨2, ![E, 1]⟩ ⟨2, ![E, C₂]⟩)
    (ht : IsRowScatter dt) (h₂ : IsRowScatter d₂)
    (hbt : (⟨0, ![]⟩ : Shape).BroadcastsInDim ⟨2, ![N, Ct]⟩ (![] : Fin 0 → Fin 2))
    (hb₂ : (⟨0, ![]⟩ : Shape).BroadcastsInDim ⟨2, ![N, C₂]⟩ (![] : Fin 0 → Fin 2))
    (hcat : Shape.Concatenates [⟨2, ![E, C₁]⟩, ⟨2, ![E, C₂]⟩] ⟨2, ![E, Ct]⟩ 1)
    (hsr : (⟨2, ![N, Ct]⟩ : Shape).Slices ![0, C₁] ⟨2, ![N, C₂]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₂]⟩ ![0, C₁] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsr
      = Host.scatterAdd d₂ (broadcastInDim ⟨2, ![N, C₂]⟩ ![] hb₂ z) idx o := by
  funext i
  obtain ⟨n, c, rfl⟩ : ∃ n c, i = ix2 n c := ⟨i 0, i 1, eq_ix2 i⟩
  -- the column, as a column of the wide array: past the first array's columns
  have hcl : C₁ + c.val < Ct := by
    have h : C₁ + C₂ ≤ Ct := hsr.2 1
    have := c.isLt
    omega
  rw [extractStridedSlice_apply ![0, C₁] _ hsr (ix2 n c) (ix2 n ⟨C₁ + c.val, hcl⟩)
    (fun a => by match a with | ⟨0, _⟩ => exact (Nat.zero_add _).symm | ⟨1, _⟩ => rfl)]
  rw [scatterAdd_rows_apply' ht, scatterAdd_rows_apply' h₂, broadcast_scalar_apply, broadcast_scalar_apply]
  refine congrArg (fun t => z (fun a => a.elim0) + t) (Finset.sum_congr rfl fun e _ => ?_)
  rw [concatenate_pair_apply_right 1 u o hcat (ix2 e ⟨C₁ + c.val, hcl⟩) rfl rfl (ix2 e c)
    (fun b hb => by match b with | ⟨0, _⟩ => rfl | ⟨1, _⟩ => exact absurd rfl hb)
    (Nat.add_comm _ _)]

/-- The instance for 20000 nodes, 640000 edges and 128 message channels beside one column of ones: the first 128
    columns of the joint segment sum are the segment sum of the messages. -/
theorem slice_messages_scatterAdd
    (d129 : ScatterDims ⟨2, ![20000, 129]⟩ ⟨2, ![640000, 1]⟩ ⟨2, ![640000, 129]⟩)
    (d128 : ScatterDims ⟨2, ![20000, 128]⟩ ⟨2, ![640000, 1]⟩ ⟨2, ![640000, 128]⟩)
    (h129 : IsRowScatter d129) (h128 : IsRowScatter d128)
    (hb129 : (⟨0, ![]⟩ : Shape).BroadcastsInDim ⟨2, ![20000, 129]⟩ (![] : Fin 0 → Fin 2))
    (hb128 : (⟨0, ![]⟩ : Shape).BroadcastsInDim ⟨2, ![20000, 128]⟩ (![] : Fin 0 → Fin 2))
    (hcat : Shape.Concatenates [⟨2, ![640000, 128]⟩, ⟨2, ![640000, 1]⟩] ⟨2, ![640000, 129]⟩ 1)
    (hsl : (⟨2, ![20000, 129]⟩ : Shape).Slices ![0, 0] ⟨2, ![20000, 128]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 128]⟩ ![0, 0] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsl
      = Host.scatterAdd d128 (broadcastInDim ⟨2, ![20000, 128]⟩ ![] hb128 z) idx u :=
  slice_left_scatterAdd_concat d129 d128 h129 h128 hb129 hb128 hcat hsl z idx u o

/-- The same instance's last column: it is the segment sum of the ones, the number of edges arriving at each node. -/
theorem slice_ones_scatterAdd
    (d129 : ScatterDims ⟨2, ![20000, 129]⟩ ⟨2, ![640000, 1]⟩ ⟨2, ![640000, 129]⟩)
    (d1 : ScatterDims ⟨2, ![20000, 1]⟩ ⟨2, ![640000, 1]⟩ ⟨2, ![640000, 1]⟩)
    (h129 : IsRowScatter d129) (h1 : IsRowScatter d1)
    (hb129 : (⟨0, ![]⟩ : Shape).BroadcastsInDim ⟨2, ![20000, 129]⟩ (![] : Fin 0 → Fin 2))
    (hb1 : (⟨0, ![]⟩ : Shape).BroadcastsInDim ⟨2, ![20000, 1]⟩ (![] : Fin 0 → Fin 2))
    (hcat : Shape.Concatenates [⟨2, ![640000, 128]⟩, ⟨2, ![640000, 1]⟩] ⟨2, ![640000, 129]⟩ 1)
    (hsr : (⟨2, ![20000, 129]⟩ : Shape).Slices ![0, 128] ⟨2, ![20000, 1]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 1]⟩ ![0, 128] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsr
      = Host.scatterAdd d1 (broadcastInDim ⟨2, ![20000, 1]⟩ ![] hb1 z) idx o :=
  slice_right_scatterAdd_concat d129 d1 h129 h1 hb129 hb1 hcat hsr z idx u o

end SideBySide

end Cert.LibScatterRows

end
-- ==== Proof.DenseStages.lean ====
/-
  The two dense stages as matrix products over concatenated operands, over the extended reals.

  A row of the concatenation [a | b | c] against a weight matrix W is the row of a against W's first block of rows,
  plus the row of b against the next block, plus c's entry times W's last row: the contraction's sum over the
  concatenated coordinate splits at the block boundaries, and on each block the concatenation reads the piece and
  the slice of W reads W at the shifted row. Only the commutative-monoid laws of + are used.
-/
import Idealize.ShloMosaic.PureOps.Ideal.Laws
import Idealize.ShloMosaic.Lib.ValueIdx
import Idealize.ShloMosaic.Lib.Pipeline.Value
import Mathlib.Algebra.BigOperators.Fin
import proofs.«430626_j16037407883356_1_alg».proof.Proof.Spec
import proofs.«430626_j16037407883356_1_alg».proof.Proof.LibPlainDot

noncomputable section

open scoped BigOperators

namespace Cert.Gnn.Dense

open Idealize.ShloMosaic Idealize.ShloMosaic.ValueIdx Cert.Gnn

/-- A sum over 257 = 128 + 128 + 1 coordinates, split at the two block boundaries. -/
theorem sum_split_257 {M : Type*} [AddCommMonoid M] (f : Fin 257 → M) :
    ∑ j : Fin 257, f j
      = ((∑ k : Fin 128, f ⟨k.val, by omega⟩) + (∑ k : Fin 128, f ⟨128 + k.val, by omega⟩)) + f ⟨256, by omega⟩ := by
  rw [Fin.sum_univ_castSucc (n := 256) f]
  congr 1
  exact Fin.sum_univ_add (a := 128) (b := 128) fun i : Fin (128 + 128) => f (Fin.castSucc i)

/-- A sum over 256 = 128 + 128 coordinates, split at the block boundary. -/
theorem sum_split_256 {M : Type*} [AddCommMonoid M] (f : Fin 256 → M) :
    ∑ j : Fin 256, f j = (∑ k : Fin 128, f ⟨k.val, by omega⟩) + (∑ k : Fin 128, f ⟨128 + k.val, by omega⟩) :=
  Fin.sum_univ_add (a := 128) (b := 128) (f : Fin (128 + 128) → M)

/-- A bias broadcast first to one row, then down the rows, reads the bias at the column. -/
theorem bias_apply {R : Nat} (hb1 : C_.BroadcastsInDim RC ![1]) (hb2 : RC.BroadcastsInDim ⟨2, ![R, 128]⟩ ![0, 1])
    (b : C_.Idx → EReal) (p : Fin R) (q : Fin 128) :
    broadcastInDim ⟨2, ![R, 128]⟩ ![0, 1] hb2 (broadcastInDim RC ![1] hb1 b) (ix2 p q) = b (ix1 q) := by
  refine (broadcastInDim_apply _ hb2 _ (ix2 p q) (ix2 0 q) fun a => ?_).trans
    (broadcastInDim_apply _ hb1 b (ix2 0 q) (ix1 q) fun a => ?_)
  · match a with
    | ⟨0, _⟩ => rfl
    | ⟨1, _⟩ => rfl
  · match a with
    | ⟨0, _⟩ => rfl

/-- A slice of whole rows of a weight matrix, read at (k, q), is the matrix at the row shifted by the offset. -/
theorem slice_rows_apply {K m : Nat} (o : Nat) (hs : (⟨2, ![K, 128]⟩ : Shape).Slices ![o, 0] ⟨2, ![m, 128]⟩)
    (w : (⟨2, ![K, 128]⟩ : Shape).Idx → EReal) (k : Fin m) (q : Fin 128) (r : Fin K) (hr : r.val = o + k.val) :
    extractStridedSlice ⟨2, ![m, 128]⟩ ![o, 0] w hs (ix2 k q) = w (ix2 r q) :=
  extractStridedSlice_apply _ w hs (ix2 k q) (ix2 r q) fun a => by
    match a with
    | ⟨0, _⟩ => exact hr
    | ⟨1, _⟩ => exact (Nat.zero_add _).symm

section Cat3
variable (hcat : Shape.Concatenates [EC, EC, E1] ⟨2, ![640000, 257]⟩ 1)
  (xd xs : EC.Idx → EReal) (ea : E1.Idx → EReal) (p : Fin 640000)

/-- The three-piece concatenation along the columns reads the first piece on columns below 128 … -/
theorem cat3_fst (k : Fin 128) :
    concatenate ⟨2, ![640000, 257]⟩ 1 [⟨EC, xd⟩, ⟨EC, xs⟩, ⟨E1, ea⟩] hcat (ix2 p ⟨k.val, by omega⟩) = xd (ix2 p k) :=
  concatenate_apply_piece (t := ⟨2, ![640000, 257]⟩) 1 [⟨EC, xd⟩, ⟨EC, xs⟩, ⟨E1, ea⟩] hcat (ix2 p ⟨k.val, by omega⟩) 0 (by simp) EC xd rfl rfl 0 rfl (ix2 p k)
    (fun b hb => by
      match b, hb with
      | ⟨0, _⟩, _ => rfl
      | ⟨1, _⟩, hb => exact absurd rfl hb)
    (Nat.zero_add _)

/-- … the second piece on columns 128 to 255 … -/
theorem cat3_snd (k : Fin 128) :
    concatenate ⟨2, ![640000, 257]⟩ 1 [⟨EC, xd⟩, ⟨EC, xs⟩, ⟨E1, ea⟩] hcat (ix2 p ⟨128 + k.val, by omega⟩) = xs (ix2 p k) :=
  concatenate_apply_piece (t := ⟨2, ![640000, 257]⟩) 1 [⟨EC, xd⟩, ⟨EC, xs⟩, ⟨E1, ea⟩] hcat (ix2 p ⟨128 + k.val, by omega⟩) 1 (by simp) EC xs rfl rfl 128 rfl (ix2 p k)
    (fun b hb => by
      match b, hb with
      | ⟨0, _⟩, _ => rfl
      | ⟨1, _⟩, hb => exact absurd rfl hb)
    rfl

/-- … and the one-column third piece on column 256. -/
theorem cat3_trd :
    concatenate ⟨2, ![640000, 257]⟩ 1 [⟨EC, xd⟩, ⟨EC, xs⟩, ⟨E1, ea⟩] hcat (ix2 p ⟨256, by omega⟩) = ea (ix2 p 0) :=
  concatenate_apply_piece (t := ⟨2, ![640000, 257]⟩) 1 [⟨EC, xd⟩, ⟨EC, xs⟩, ⟨E1, ea⟩] hcat (ix2 p ⟨256, by omega⟩) 2 (by simp) E1 ea rfl rfl 256 rfl (ix2 p 0)
    (fun b hb => by
      match b, hb with
      | ⟨0, _⟩, _ => rfl
      | ⟨1, _⟩, hb => exact absurd rfl hb)
    rfl

end Cat3

section Cat2
variable (hcat : Shape.Concatenates [NC, NC] ⟨2, ![20000, 256]⟩ 1) (xa ag : NC.Idx → EReal) (n : Fin 20000)

/-- The two-piece concatenation along the columns reads the first piece on columns below 128 … -/
theorem cat2_fst (k : Fin 128) :
    concatenate ⟨2, ![20000, 256]⟩ 1 [⟨NC, xa⟩, ⟨NC, ag⟩] hcat (ix2 n ⟨k.val, by omega⟩) = xa (ix2 n k) :=
  concatenate_apply_piece (t := ⟨2, ![20000, 256]⟩) 1 [⟨NC, xa⟩, ⟨NC, ag⟩] hcat (ix2 n ⟨k.val, by omega⟩) 0 (by simp) NC xa rfl rfl 0 rfl (ix2 n k)
    (fun b hb => by
      match b, hb with
      | ⟨0, _⟩, _ => rfl
      | ⟨1, _⟩, hb => exact absurd rfl hb)
    (Nat.zero_add _)

/-- … and the second piece on columns 128 to 255. -/
theorem cat2_snd (k : Fin 128) :
    concatenate ⟨2, ![20000, 256]⟩ 1 [⟨NC, xa⟩, ⟨NC, ag⟩] hcat (ix2 n ⟨128 + k.val, by omega⟩) = ag (ix2 n k) :=
  concatenate_apply_piece (t := ⟨2, ![20000, 256]⟩) 1 [⟨NC, xa⟩, ⟨NC, ag⟩] hcat (ix2 n ⟨128 + k.val, by omega⟩) 1 (by simp) NC ag rfl rfl 128 rfl (ix2 n k)
    (fun b hb => by
      match b, hb with
      | ⟨0, _⟩, _ => rfl
      | ⟨1, _⟩, hb => exact absurd rfl hb)
    rfl

end Cat2

theorem msg_eq_dot (hcat : Shape.Concatenates [EC, EC, E1] ⟨2, ![640000, 257]⟩ 1)
    (hs0 : (⟨2, ![257, 128]⟩ : Shape).Slices ![0, 0] CC) (hs1 : (⟨2, ![257, 128]⟩ : Shape).Slices ![128, 0] CC)
    (hs2 : (⟨2, ![257, 128]⟩ : Shape).Slices ![256, 0] RC) (hb1 : C_.BroadcastsInDim RC ![1])
    (hb2 : RC.BroadcastsInDim EC ![0, 1])
    (xd xs : FVec Ideal EC .f32) (ea : FVec Ideal E1 .f32) (gw : FVec Ideal ⟨2, ![257, 128]⟩ .f32)
    (gb : FVec Ideal C_ .f32) :
    Cert.Gnn.msg xd xs ea (extractStridedSlice CC ![0, 0] gw hs0) (extractStridedSlice CC ![128, 0] gw hs1)
        (extractStridedSlice RC ![256, 0] gw hs2) gb
      = addf (Host.dotGeneral (DotDims.plain 640000 257 128) none
          (concatenate ⟨2, ![640000, 257]⟩ 1 [⟨EC, xd⟩, ⟨EC, xs⟩, ⟨E1, ea⟩] hcat) gw)
          (broadcastInDim EC ![0, 1] hb2 (broadcastInDim RC ![1] hb1 gb)) := by
  funext i
  obtain ⟨p, q, rfl⟩ : ∃ p q, i = ix2 p q := ⟨i 0, i 1, eq_ix2 i⟩
  rw [addf_apply, bias_apply hb1 hb2 gb p q]
  show msgAt xd xs ea _ _ _ gb p q = _
  unfold msgAt
  congr 1
  refine Eq.trans ?_ (Cert.LibPlainDot.dotGeneral_plain_apply 640000 257 128 none .single _ gw p q).symm
  rw [sum_split_257]
  refine congrArg₂ (· + ·) (congrArg₂ (· + ·) (Finset.sum_congr rfl fun k _ => ?_) (Finset.sum_congr rfl fun k _ => ?_)) ?_
  · rw [cat3_fst hcat xd xs ea p k, slice_rows_apply 0 hs0 gw k q ⟨k.val, by omega⟩ (Nat.zero_add _).symm]
  · rw [cat3_snd hcat xd xs ea p k, slice_rows_apply 128 hs1 gw k q ⟨128 + k.val, by omega⟩ rfl]
  · rw [cat3_trd hcat xd xs ea p, slice_rows_apply 256 hs2 gw 0 q ⟨256, by omega⟩ rfl]

/-- The word 0x3F800000 is the real 1. -/
theorem ofBits_one : Ideal.ofBits .f32 0x3F800000#32 = 1 := by
  simp [Ideal.ofBits, Ideal.ieee, -EReal.coe_mul]; norm_num

/-- The classifier's one bias, broadcast to one by one and then down the nodes, reads the bias. -/
theorem cbias_apply (hb3 : B1.BroadcastsInDim ⟨2, ![1, 1]⟩ ![1])
    (hb4 : (⟨2, ![1, 1]⟩ : Shape).BroadcastsInDim N1 ![0, 1]) (b : B1.Idx → EReal) (n : Fin 20000) :
    broadcastInDim N1 ![0, 1] hb4 (broadcastInDim ⟨2, ![1, 1]⟩ ![1] hb3 b) (ix2 n 0) = b (ix1 0) := by
  refine (broadcastInDim_apply _ hb4 _ (ix2 n 0) (ix2 0 0) fun a => ?_).trans
    (broadcastInDim_apply _ hb3 b (ix2 0 0) (ix1 0) fun a => ?_)
  · match a with
    | ⟨0, _⟩ => rfl
    | ⟨1, _⟩ => rfl
  · match a with
    | ⟨0, _⟩ => rfl

/-- A node's hidden row is the row of [own | aggregated] against the update weights, plus the bias. -/
theorem hid_eq_dot (hcat : Shape.Concatenates [NC, NC] ⟨2, ![20000, 256]⟩ 1)
    (hs0 : (⟨2, ![256, 128]⟩ : Shape).Slices ![0, 0] CC) (hs1 : (⟨2, ![256, 128]⟩ : Shape).Slices ![128, 0] CC)
    (hb1 : C_.BroadcastsInDim RC ![1]) (hb2 : RC.BroadcastsInDim NC ![0, 1])
    (xa ag : FVec Ideal NC .f32) (fw : FVec Ideal ⟨2, ![256, 128]⟩ .f32) (fb : FVec Ideal C_ .f32)
    (n : Fin 20000) (k : Fin 128) :
    hidAt xa ag (extractStridedSlice CC ![0, 0] fw hs0) (extractStridedSlice CC ![128, 0] fw hs1) fb n k
      = addf (Host.dotGeneral (DotDims.plain 20000 256 128) none
            (concatenate ⟨2, ![20000, 256]⟩ 1 [⟨NC, xa⟩, ⟨NC, ag⟩] hcat) fw)
          (broadcastInDim NC ![0, 1] hb2 (broadcastInDim RC ![1] hb1 fb)) (ix2 n k) := by
  rw [addf_apply, bias_apply hb1 hb2 fb n k]
  unfold hidAt
  congr 1
  refine Eq.trans ?_ (Cert.LibPlainDot.dotGeneral_plain_apply 20000 256 128 none .single _ fw n k).symm
  rw [sum_split_256]
  refine congrArg₂ (· + ·) (Finset.sum_congr rfl fun j _ => ?_) (Finset.sum_congr rfl fun j _ => ?_)
  · rw [cat2_fst hcat xa ag n j, slice_rows_apply 0 hs0 fw j k ⟨j.val, by omega⟩ (Nat.zero_add _).symm]
  · rw [cat2_snd hcat xa ag n j, slice_rows_apply 128 hs1 fw j k ⟨128 + j.val, by omega⟩ rfl]

theorem prob_eq_dot (hcat : Shape.Concatenates [NC, NC] ⟨2, ![20000, 256]⟩ 1)
    (hs0 : (⟨2, ![256, 128]⟩ : Shape).Slices ![0, 0] CC) (hs1 : (⟨2, ![256, 128]⟩ : Shape).Slices ![128, 0] CC)
    (hb1 : C_.BroadcastsInDim RC ![1]) (hb2 : RC.BroadcastsInDim NC ![0, 1])
    (hb3 : B1.BroadcastsInDim ⟨2, ![1, 1]⟩ ![1]) (hb4 : (⟨2, ![1, 1]⟩ : Shape).BroadcastsInDim N1 ![0, 1])
    (hb5 : (⟨0, ![]⟩ : Shape).BroadcastsInDim N1 ![])
    (xa ag : FVec Ideal NC .f32) (fw : FVec Ideal ⟨2, ![256, 128]⟩ .f32) (fb : FVec Ideal C_ .f32)
    (cw : FVec Ideal C1 .f32) (cb : FVec Ideal B1 .f32) :
    Cert.Gnn.prob xa ag (extractStridedSlice CC ![0, 0] fw hs0) (extractStridedSlice CC ![128, 0] fw hs1) fb cw cb
      = Host.divf (broadcastInDim N1 ![] hb5 (constant (F := Ideal) ⟨0, ![]⟩ .f32 0x3F800000#32))
          (addf (broadcastInDim N1 ![] hb5 (constant (F := Ideal) ⟨0, ![]⟩ .f32 0x3F800000#32))
            (Host.exp (Host.negf (addf
              (Host.dotGeneral (DotDims.plain 20000 128 1) none
                (addf (Host.dotGeneral (DotDims.plain 20000 256 128) none
                    (concatenate ⟨2, ![20000, 256]⟩ 1 [⟨NC, xa⟩, ⟨NC, ag⟩] hcat) fw)
                  (broadcastInDim NC ![0, 1] hb2 (broadcastInDim RC ![1] hb1 fb)))
                cw)
              (broadcastInDim N1 ![0, 1] hb4 (broadcastInDim ⟨2, ![1, 1]⟩ ![1] hb3 cb)))))) := by
  funext i
  obtain ⟨n, z, rfl⟩ : ∃ n z, i = ix2 n z := ⟨i 0, i 1, eq_ix2 i⟩
  obtain rfl : z = 0 := Subsingleton.elim _ _
  -- the logit on the two sides
  have hlogit : (∑ k : Fin 128, hidAt xa ag (extractStridedSlice CC ![0, 0] fw hs0)
        (extractStridedSlice CC ![128, 0] fw hs1) fb n k * cw (ix2 k 0)) + cb (ix1 0)
      = addf (Host.dotGeneral (DotDims.plain 20000 128 1) none
            (addf (Host.dotGeneral (DotDims.plain 20000 256 128) none
                (concatenate ⟨2, ![20000, 256]⟩ 1 [⟨NC, xa⟩, ⟨NC, ag⟩] hcat) fw)
              (broadcastInDim NC ![0, 1] hb2 (broadcastInDim RC ![1] hb1 fb)))
            cw)
          (broadcastInDim N1 ![0, 1] hb4 (broadcastInDim ⟨2, ![1, 1]⟩ ![1] hb3 cb)) (ix2 n 0) := by
    rw [addf_apply, cbias_apply hb3 hb4 cb n]
    congr 1
    refine Eq.trans ?_ (Cert.LibPlainDot.dotGeneral_plain_apply 20000 128 1 none .single _ cw n 0).symm
    exact Finset.sum_congr rfl fun k _ => by rw [hid_eq_dot hcat hs0 hs1 hb1 hb2 xa ag fw fb n k]
  show Ideal.logistic _ = Ideal.div (Ideal.ofBits .f32 0x3F800000#32)
    (Ideal.ofBits .f32 0x3F800000#32 + Ideal.exp (-(_)))
  rw [hlogit, ofBits_one]
  rfl

end Cert.Gnn.Dense

end
-- ==== Proof.Bridge.lean ====
/-
  The kernel's two results are the reference's, as functions of the same arguments, once every entry of the index pair
  is a row of the node table counted from either end (-20000 ≤ index < 20000).

  Then the kernel's guarded row gathers never replace a row, so they are the reference's plain gathers of the wrapped
  indices. The message stage is the reference's one product over the joined operand [destination row | source row |
  edge attribute]: a sum over 257 columns is the sum over the first 128, the next 128 and the last one. The joint
  segment sum of [messages | ones], cut back into its two column ranges, is the reference's two segment sums, because a
  row scatter acts on each column by itself; the mean is then the same quotient. The update stage is the reference's
  product over [node row | mean message], its second product and the logistic function written out as
  1 / (1 + exp (-logit)). The decisions compare the same probabilities with the same one half.
-/
import proofs.«430626_j16037407883356_1_alg».proof.Proof.KernelValue
import proofs.«430626_j16037407883356_1_alg».proof.Proof.Gen.ReferenceIdeal.Read
import proofs.«430626_j16037407883356_1_alg».proof.Proof.TakeRows
import proofs.«430626_j16037407883356_1_alg».proof.Proof.LibScatterRows
import proofs.«430626_j16037407883356_1_alg».proof.Proof.DenseStages

set_option maxRecDepth 16384

noncomputable section

namespace Cert.Bridge

open Idealize.ShloMosaic Idealize.ShloMosaic.TcCoe Idealize.SL.Sem
open Cert.KernelIdeal.HostFold Cert.KernelIdeal.KVal

/-- Under the index range a guarded row gather is the plain gather of the wrapped indices. -/
theorem take_eq_gather (x0 : FVec Ideal Cert.KernelIdeal.S20000x128 .f32) (idx : IVec Cert.KernelIdeal.S640000 32)
    (hidx : ∀ e, -20000 ≤ (idx e).toInt ∧ (idx e).toInt < 20000) :
    take x0 idx = Host.gather Cert.ReferenceIdeal.gather_S20000x128_S640000x1_S640000x128_1_0_n_n_0_1_1128 x0 (wrapped idx) := by
  unfold take wrapped
  exact Cert.Gnn.TakeRows.take_guard_true _ _ _ _ _ _ _ _ idx hidx _ _

variable (x0 : FVec Ideal Cert.KernelIdeal.S20000x128 .f32) (x1 : IVec Cert.KernelIdeal.S2x640000 32)
  (x2 : FVec Ideal Cert.KernelIdeal.S640000x1 .f32) (x3 : FVec Ideal Cert.KernelIdeal.S257x128 .f32)
  (x4 : FVec Ideal Cert.KernelIdeal.S128 .f32) (x5 : FVec Ideal Cert.KernelIdeal.S256x128 .f32)
  (x6 : FVec Ideal Cert.KernelIdeal.S128 .f32) (x7 : FVec Ideal Cert.KernelIdeal.S128x1 .f32)
  (x8 : FVec Ideal Cert.KernelIdeal.S1 .f32)

attribute [local irreducible] Host.gather Host.scatterAdd concatenate in
/-- The kernel's message array is the reference's. -/
theorem msgs_eq (h : ∀ i : Cert.KernelIdeal.S2x640000.Idx, -20000 ≤ (x1 i).toInt ∧ (x1 i).toInt < 20000) :
    msgs x0 x1 x2 x3 x4 = Cert.ReferenceIdeal.Read.val_main_v22 (F := Ideal) x0 x1 x2 x3 x4 := by
  unfold msgs
  rw [take_eq_gather x0 (row1 x1) (Cert.Gnn.TakeRows.row1_range _ _ x1 h),
    take_eq_gather x0 (row0 x1) (Cert.Gnn.TakeRows.row0_range _ _ x1 h)]
  refine (Cert.Gnn.Dense.msg_eq_dot Cert.ReferenceIdeal.Gen.concatenates_S640000x128_S640000x128_S640000x1_S640000x257_d1
    Cert.KernelIdeal.Gen.slices_S257x128_S128x128_0_0 Cert.KernelIdeal.Gen.slices_S257x128_S128x128_128_0
    Cert.KernelIdeal.Gen.slices_S257x128_S1x128_256_0 Cert.ReferenceIdeal.Gen.bcast_S128_S1x128_1
    Cert.ReferenceIdeal.Gen.bcast_S1x128_S640000x128_0_1 _ _ x2 x3 x4).trans ?_
  rfl

attribute [local irreducible] Host.gather Host.scatterAdd concatenate in
/-- The kernel's mean message array is the reference's. -/
theorem aggr_eq (h : ∀ i : Cert.KernelIdeal.S2x640000.Idx, -20000 ≤ (x1 i).toInt ∧ (x1 i).toInt < 20000) :
    aggr (row1 x1) (msgs x0 x1 x2 x3 x4) = Cert.ReferenceIdeal.Read.val_main_v33 (F := Ideal) x0 x1 x2 x3 x4 := by
  rw [msgs_eq x0 x1 x2 x3 x4 h]
  unfold aggr segsum
  rw [Cert.LibScatterRows.slice_messages_scatterAdd Cert.KernelIdeal.scatter_S20000x129_S640000x1_S640000x129_1_0_0_1
      Cert.ReferenceIdeal.scatter_S20000x128_S640000x1_S640000x128_1_0_0_1 ⟨rfl, rfl, rfl, rfl⟩ ⟨rfl, rfl, rfl, rfl⟩
      Cert.KernelIdeal.Gen.bcast_S_S20000x129 Cert.ReferenceIdeal.Gen.bcast_S_S20000x128
      Cert.KernelIdeal.Gen.concatenates_S640000x128_S640000x1_S640000x129_d1 Cert.KernelIdeal.Gen.slices_S20000x129_S20000x128_0_0,
    Cert.LibScatterRows.slice_ones_scatterAdd Cert.KernelIdeal.scatter_S20000x129_S640000x1_S640000x129_1_0_0_1
      Cert.ReferenceIdeal.scatter_S20000x1_S640000x1_S640000x1_1_0_0_1 ⟨rfl, rfl, rfl, rfl⟩ ⟨rfl, rfl, rfl, rfl⟩
      Cert.KernelIdeal.Gen.bcast_S_S20000x129 Cert.ReferenceIdeal.Gen.bcast_S_S20000x1
      Cert.KernelIdeal.Gen.concatenates_S640000x128_S640000x1_S640000x129_d1 Cert.KernelIdeal.Gen.slices_S20000x129_S20000x1_0_128]
  rfl

attribute [local irreducible] Host.gather Host.scatterAdd concatenate in
/-- The kernel's probabilities are the reference's. -/
theorem probs_eq (h : ∀ i : Cert.KernelIdeal.S2x640000.Idx, -20000 ≤ (x1 i).toInt ∧ (x1 i).toInt < 20000) :
    probs x0 x1 x2 x3 x4 x5 x6 x7 x8 = Cert.ReferenceIdeal.Read.val_main_v48 (F := Ideal) x0 x1 x2 x3 x4 x5 x6 x7 x8 := by
  unfold probs
  rw [aggr_eq x0 x1 x2 x3 x4 h]
  refine (Cert.Gnn.Dense.prob_eq_dot Cert.ReferenceIdeal.Gen.concatenates_S20000x128_S20000x128_S20000x256_d1
    Cert.KernelIdeal.Gen.slices_S256x128_S128x128_0_0 Cert.KernelIdeal.Gen.slices_S256x128_S128x128_128_0
    Cert.ReferenceIdeal.Gen.bcast_S128_S1x128_1 Cert.ReferenceIdeal.Gen.bcast_S1x128_S20000x128_0_1
    Cert.ReferenceIdeal.Gen.bcast_S1_S1x1_1 Cert.ReferenceIdeal.Gen.bcast_S1x1_S20000x1_0_1 Cert.ReferenceIdeal.Gen.bcast_S_S20000x1
    x0 _ x5 x6 x7 x8).trans ?_
  rfl

/-- The kernel's decisions are the reference's. -/
theorem decisions_eq (h : ∀ i : Cert.KernelIdeal.S2x640000.Idx, -20000 ≤ (x1 i).toInt ∧ (x1 i).toInt < 20000) :
    decisions x0 x1 x2 x3 x4 x5 x6 x7 x8 = Cert.ReferenceIdeal.Read.val_main_v50 (F := Ideal) x0 x1 x2 x3 x4 x5 x6 x7 x8 := by
  unfold decisions
  rw [probs_eq x0 x1 x2 x3 x4 x5 x6 x7 x8 h]
  rfl

end Cert.Bridge

end
-- ==== Proof.lean ====
/-
  The certificate of a message-passing layer over a graph of 20000 nodes and 640000 edges: every edge's message is an
  affine map of [destination row | source row | edge attribute]; every node takes the mean of the messages arriving at
  it (an empty node the zero row); a second affine map of [node row | mean message], a classifier and the logistic
  function give the node's probability, and the decision is whether it exceeds one half.

  The kernel computes the two affine maps in two launches, each as a sum of products with the blocks of the split weight
  matrix, gathers the rows with a guard for indices outside the table, and takes the sums and the counts in one joint
  segment sum; the reference writes each map as one product over a joined operand, gathers without a guard and takes two
  segment sums. Over the extended reals, and with every index a row of the table counted from either end, these are
  the same functions of the arguments (Proof/Bridge.lean): the guard never fires, a sum over joined columns is the sum
  of the sums over the parts, a row scatter acts on each column by itself, and the kernel's logistic operation is
  1 / (1 + exp (-x)) by definition. Each launch's output array is one whole-array function of the arrays it is given
  (Proof/MsgRegion.lean, Proof/UpdRegion.lean), and the fold through the program composes them (Proof/KernelValue.lean).
  The three programs terminate with their arguments unchanged; the idealization rewrote nothing.
-/
import proofs.«430626_j16037407883356_1_alg».proof.Defs
import proofs.«430626_j16037407883356_1_alg».proof.Proof.Gen.Kernel
import proofs.«430626_j16037407883356_1_alg».proof.Proof.Gen.Kernel.Skeleton
import proofs.«430626_j16037407883356_1_alg».proof.Proof.Gen.Kernel.Launch
import proofs.«430626_j16037407883356_1_alg».proof.Proof.Gen.Kernel.Points
import proofs.«430626_j16037407883356_1_alg».proof.Proof.Gen.Kernel.Frame
import proofs.«430626_j16037407883356_1_alg».proof.Proof.Gen.KernelIdeal
import proofs.«430626_j16037407883356_1_alg».proof.Proof.Gen.KernelIdeal.Skeleton
import proofs.«430626_j16037407883356_1_alg».proof.Proof.Gen.KernelIdeal.Launch
import proofs.«430626_j16037407883356_1_alg».proof.Proof.Gen.KernelIdeal.Points
import proofs.«430626_j16037407883356_1_alg».proof.Proof.Gen.KernelIdeal.Frame
import proofs.«430626_j16037407883356_1_alg».proof.Proof.Gen.ReferenceIdeal
import proofs.«430626_j16037407883356_1_alg».proof.Proof.Gen.ReferenceIdeal.Run
import proofs.«430626_j16037407883356_1_alg».proof.Proof.Gen.ReferenceIdeal.Read
import proofs.«430626_j16037407883356_1_alg».proof.Proof.Gen.Pre_finite_inputs
import proofs.«430626_j16037407883356_1_alg».proof.Proof.KernelRun
import proofs.«430626_j16037407883356_1_alg».proof.Proof.KernelValue
import proofs.«430626_j16037407883356_1_alg».proof.Proof.MsgRegion
import proofs.«430626_j16037407883356_1_alg».proof.Proof.UpdRegion
import proofs.«430626_j16037407883356_1_alg».proof.Proof.IndexRange
import proofs.«430626_j16037407883356_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the decisions and the probabilities at the kernel's functions of the arguments: the kernel by
    its run read through the two launches, the reference by its run and the bridge, which the precondition's index
    range opens. -/
theorem algebraic : Cert.algebraic_KernelIdeal_ReferenceIdeal := by
  intro m ρ m' ρ' hpre hagree
  have hrange : ∀ c : Dev Cert.KernelIdeal.nD, ∀ i : Cert.KernelIdeal.S2x640000.Idx,
      -20000 ≤ ((m ((c.tc : Thread Cert.KernelIdeal.nD Cert.KernelIdeal.τ).loc Cert.KernelIdeal.main_arg1)) i).toInt
        ∧ ((m ((c.tc : Thread Cert.KernelIdeal.nD Cert.KernelIdeal.τ).loc Cert.KernelIdeal.main_arg1)) i).toInt < 20000 :=
    fun c => Cert.Gnn.IndexRange.idx_range _ _ _ _ _ _ _ _ _ (hpre c)
  refine ⟨fun c => Cert.KernelIdeal.KVal.decisions
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    fun c => Cert.KernelIdeal.KVal.probs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono (fun r h c =>
      ⟨(h c).1.trans (Cert.KernelIdeal.KVal.W8_v25 m ρ Cert.KernelIdeal.MsgRegion.final Cert.KernelIdeal.UpdRegion.final c),
       (h c).2.1.trans (Cert.KernelIdeal.KVal.W8_v23 m ρ Cert.KernelIdeal.MsgRegion.final Cert.KernelIdeal.UpdRegion.final c),
       (h c).2.2⟩) (Cert.KernelIdeal.RunV.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [(hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2]
      exact (Cert.ReferenceIdeal.Read.val_main_v50_eq _ _ _ _ _ _ _ _ _).trans
        (Cert.Bridge.decisions_eq _ _ _ _ _ _ _ _ _ (hrange c)).symm
    · rw [(hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2]
      exact (Cert.ReferenceIdeal.Read.val_main_v48_eq _ _ _ _ _ _ _ _ _).trans
        (Cert.Bridge.probs_eq _ _ _ _ _ _ _ _ _ (hrange c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
